-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x96 : Shape := ⟨2, ![128, 96]⟩
abbrev S96 : Shape := ⟨1, ![96]⟩
abbrev S96x96 : Shape := ⟨2, ![96, 96]⟩
abbrev S96x40 : Shape := ⟨2, ![96, 40]⟩
abbrev S40 : Shape := ⟨1, ![40]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_
  bcast_S_S96x40 : S_.BroadcastsInDim S96x40 (![] : Fin 0 → Fin S96x40.rank)
  reducesTo_S96x40_S_d0_1 : S96x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S96 .f32) (main_arg5 : FVec F S96x40 .f32) (main_arg6 : FVec F S40 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg4
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x40 .f32 := Host.absf main_arg5
  let main_cst_8 : FVec F S_ .f32 := constant S_ .f32 0x7F800000#32
  let main_v25 : FVec F S96x40 .f32 := broadcastInDim S96x40 ![] bcast_S_S96x40 main_cst_8
  let main_v26 : IVec S96x40 1 := cmpf .olt main_v24 main_v25
  let main_c_9 : IVec S_ 1 := constantI S_ 1 1#1
  let main_v27 : IVec S_ 1 := (fun x v => Host.reduce IntOp.andi x v reducesTo_S96x40_S_d0_1 h_S_) main_v26 main_c_9
  let main_v28 : IVec S_ 1 := andi main_v23 main_v27
  let main_v29 : FVec F S40 .f32 := Host.absf main_arg6
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : FVec F S128x96 .f32) (main_arg2 : FVec F S96 .f32) (main_arg3 : FVec F S96x96 .f32) (main_arg4 : FVec F S96 .f32) (main_arg5 : FVec F S96x40 .f32) (main_arg6 : FVec F S40 .f32) (main_arg7 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x96 .f32 := Host.absf main_arg1
  let main_cst_0 : FVec F S_ .f32 := constant S_ .f32 0x7F800000#32
  let main_v5 : FVec F S128x96 .f32 := broadcastInDim S128x96 ![] bcast_S_S128x96 main_cst_0
  let main_v6 : IVec S128x96 1 := cmpf .olt main_v4 main_v5
  let main_c_1 : IVec S_ 1 := constantI S_ 1 1#1
  let main_v7 : IVec S_ 1 := (fun x v => Host.reduce IntOp.andi x v reducesTo_S128x96_S_d0_1 h_S_) main_v6 main_c_1
  let main_v8 : IVec S_ 1 := andi main_v3 main_v7
  let main_v9 : FVec F S96 .f32 := Host.absf main_arg2
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg3
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg4 main_arg5 main_arg6 main_v13 main_v16
-- ==== Kernel.lean ====
abbrev S50000x128 : Shape := ⟨2, ![50000, 128]⟩
abbrev S128x96 : Shape := ⟨2, ![128, 96]⟩
abbrev S96 : Shape := ⟨1, ![96]⟩
abbrev S96x96 : Shape := ⟨2, ![96, 96]⟩
abbrev S96x40 : Shape := ⟨2, ![96, 40]⟩
abbrev S40 : Shape := ⟨1, ![40]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x96 : Shape := ⟨2, ![1, 96]⟩
abbrev S50000x96 : Shape := ⟨2, ![50000, 96]⟩
abbrev S5000x128 : Shape := ⟨2, ![5000, 128]⟩
abbrev S5000x96 : Shape := ⟨2, ![5000, 96]⟩
abbrev S800000x96 : Shape := ⟨2, ![800000, 96]⟩
abbrev S1x40 : Shape := ⟨2, ![1, 40]⟩
abbrev S50000x40 : Shape := ⟨2, ![50000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 57
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S128x96, .f32⟩
  | .hbm, ⟨2, _⟩ => ⟨S96, .f32⟩
  | .hbm, ⟨3, _⟩ => ⟨S96x96, .f32⟩
  | .hbm, ⟨4, _⟩ => ⟨S96, .f32⟩
  | .hbm, ⟨5, _⟩ => ⟨S96x40, .f32⟩
  | .hbm, ⟨6, _⟩ => ⟨S40, .f32⟩
  | .hbm, ⟨7, _⟩ => ⟨S2x800000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S1x96, .f32⟩
  | .hbm, ⟨26, _⟩ => ⟨S50000x96, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x96, .f32⟩
  | .hbm, ⟨36, _⟩ => ⟨S_, .f32⟩
  | .hbm, ⟨37, _⟩ => ⟨S50000x96, .f32⟩
  | .hbm, ⟨38, _⟩ => ⟨S800000x1, .i32⟩
  | .hbm, ⟨39, _⟩ => ⟨S50000x96, .f32⟩
  | .hbm, ⟨40, _⟩ => ⟨S1x96, .f32⟩
  | .hbm, ⟨41, _⟩ => ⟨S50000x96, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x96, .f32⟩
  | .hbm, ⟨51, _⟩ => ⟨S_, .f32⟩
  | .hbm, ⟨52, _⟩ => ⟨S50000x96, .f32⟩
  | .hbm, ⟨53, _⟩ => ⟨S800000x1, .i32⟩
  | .hbm, ⟨54, _⟩ => ⟨S50000x96, .f32⟩
  | .hbm, ⟨55, _⟩ => ⟨S1x40, .f32⟩
  | .hbm, ⟨56, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x96, .f32⟩
  | .local _ .vmem, ⟨3, _⟩ => ⟨S1x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S5000x96, .f32⟩
  | .local _ .vmem, ⟨8, _⟩ => ⟨S96x96, .f32⟩
  | .local _ .vmem, ⟨9, _⟩ => ⟨S1x96, .f32⟩
  | .local _ .vmem, ⟨10, _⟩ => ⟨S5000x96, .f32⟩
  | .local _ .vmem, ⟨11, _⟩ => ⟨S5000x96, .f32⟩
  | .local _ .vmem, ⟨12, _⟩ => ⟨S5000x96, .f32⟩
  | .local _ .vmem, ⟨13, _⟩ => ⟨S5000x96, .f32⟩
  | .local _ .vmem, ⟨14, _⟩ => ⟨S96x40, .f32⟩
  | .local _ .vmem, ⟨15, _⟩ => ⟨S1x40, .f32⟩
  | .local _ .vmem, ⟨16, _⟩ => ⟨S5000x40, .f32⟩
  | .local _ .vmem, ⟨17, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S96_S1x96 : S96.ShapeCasts S1x96
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x96_S128x96_0_0 : ∀ a, (![0, 0] : Fin 2 → Nat) a + S128x96.size a ≤ S128x96.size a
  h_S128x96 : 0 < S128x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S5000x96_S5000x96_0_0 : ∀ a, (![0, 0] : Fin 2 → Nat) a + S5000x96.size a ≤ S5000x96.size a
  h_S5000x96 : 0 < S5000x96.numel
  bcast_S_S50000x96 : S_.BroadcastsInDim S50000x96 (![] : Fin 0 → Fin S50000x96.rank)
  shapeCasts_S5000x96_S5000x96 : S5000x96.ShapeCasts S5000x96
  inb_S96x96_S96x96_0_0 : ∀ a, (![0, 0] : Fin 2 → Nat) a + S96x96.size a ≤ S96x96.size a
  h_S96x96 : 0 < S96x96.numel
  shapeCasts_S40_S1x40 : S40.ShapeCasts S1x40
  inb_S96x40_S96x40_0_0 : ∀ a, (![0, 0] : Fin 2 → Nat) a + S96x40.size a ≤ S96x40.size a
  h_S96x40 : 0 < S96x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x96_S5000x96_1_0_0_1_n_n_wf : DotDims.WF S5000x128 S128x96 S5000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  dot_S5000x96_S96x40_S5000x40_1_0_0_1_n_n_wf : DotDims.WF S5000x96 S96x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x96.size a ≤ S128x96.size a
  hwx0_1 : ∀ i : grid0.Coords, EltTy.bits .f32 = 32 ∨ (Rect.block (s := S128x96) S128x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x96.size a ≤ S1x96.size a
  hwx0_2 : ∀ i : grid0.Coords, EltTy.bits .f32 = 32 ∨ (Rect.block (s := S1x96) S1x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x96.size a ≤ S50000x96.size a
  hwx0_3 : ∀ i : grid0.Coords, EltTy.bits .f32 = 32 ∨ (Rect.block (s := S50000x96) S5000x96.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x96.size a ≤ S96x96.size a
  hwx1_1 : ∀ i : grid1.Coords, EltTy.bits .f32 = 32 ∨ (Rect.block (s := S96x96) S96x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x96.size a ≤ S1x96.size a
  hwx1_2 : ∀ i : grid1.Coords, EltTy.bits .f32 = 32 ∨ (Rect.block (s := S1x96) S1x96.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x96.size a ≤ S50000x96.size a
  hwx1_3 : ∀ i : grid1.Coords, EltTy.bits .f32 = 32 ∨ (Rect.block (s := S50000x96) S5000x96.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x40.size a ≤ S96x40.size a
  hwx2_1 : ∀ i : grid2.Coords, EltTy.bits .f32 = 32 ∨ (Rect.block (s := S96x40) S96x40.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S50000x40.size a
  hwx2_3 : ∀ i : grid2.Coords, EltTy.bits .f32 = 32 ∨ (Rect.block (s := S50000x40) S5000x40.size (cc2_transform_3 i) (hinb2_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x96_S5000x96_1_0_0_1_n_n : DotDims S5000x128 S128x96 S5000x96 where
  lhsContracting := [1]
  rhsContracting := [0]
  lhsNonContracting := [0]
  rhsNonContracting := [1]
  lhsBatch := []
  rhsBatch := []
  wf := dot_S5000x128_S128x96_S5000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def dot_S5000x96_S96x40_S5000x40_1_0_0_1_n_n : DotDims S5000x96 S96x40 S5000x40 where
  lhsContracting := [1]
  rhsContracting := [0]
  lhsNonContracting := [0]
  rhsNonContracting := [1]
  lhsBatch := []
  rhsBatch := []
  wf := dot_S5000x96_S96x40_S5000x40_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S96x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S5000x96.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v37) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S96x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x96 : Shape := ⟨2, ![128, 96]⟩
abbrev S96 : Shape := ⟨1, ![96]⟩
abbrev S96x96 : Shape := ⟨2, ![96, 96]⟩
abbrev S96x40 : Shape := ⟨2, ![96, 40]⟩
abbrev S40 : Shape := ⟨1, ![40]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x96 : Shape := ⟨2, ![50000, 96]⟩
abbrev S1x96 : Shape := ⟨2, ![1, 96]⟩
abbrev S800000x96 : Shape := ⟨2, ![800000, 96]⟩
abbrev S50000x40 : Shape := ⟨2, ![50000, 40]⟩
abbrev S1x40 : Shape := ⟨2, ![1, 40]⟩
abbrev S50000 : Shape := ⟨1, ![50000]⟩
abbrev S50000x1 : Shape := ⟨2, ![50000, 1]⟩

abbrev nBuf : Space → Nat
  | .hbm => 84
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x96, .f32⟩
  | .hbm, ⟨2, _⟩ => ⟨S96, .f32⟩
  | .hbm, ⟨3, _⟩ => ⟨S96x96, .f32⟩
  | .hbm, ⟨4, _⟩ => ⟨S96, .f32⟩
  | .hbm, ⟨5, _⟩ => ⟨S96x40, .f32⟩
  | .hbm, ⟨6, _⟩ => ⟨S40, .f32⟩
  | .hbm, ⟨7, _⟩ => ⟨S2x800000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S50000x96, .f32⟩
  | .hbm, ⟨26, _⟩ => ⟨S1x96, .f32⟩
  | .hbm, ⟨27, _⟩ => ⟨S50000x96, .f32⟩
  | .hbm, ⟨28, _⟩ => ⟨S50000x96, .f32⟩
  | .hbm, ⟨29, _⟩ => ⟨S_, .f32⟩
  | .hbm, ⟨30, _⟩ => ⟨S50000x96, .f32⟩
  | .hbm, ⟨31, _⟩ => ⟨S50000x96, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x96, .f32⟩
  | .hbm, ⟨41, _⟩ => ⟨S_, .f32⟩
  | .hbm, ⟨42, _⟩ => ⟨S50000x96, .f32⟩
  | .hbm, ⟨43, _⟩ => ⟨S800000x1, .i32⟩
  | .hbm, ⟨44, _⟩ => ⟨S50000x96, .f32⟩
  | .hbm, ⟨45, _⟩ => ⟨S50000x96, .f32⟩
  | .hbm, ⟨46, _⟩ => ⟨S1x96, .f32⟩
  | .hbm, ⟨47, _⟩ => ⟨S50000x96, .f32⟩
  | .hbm, ⟨48, _⟩ => ⟨S50000x96, .f32⟩
  | .hbm, ⟨49, _⟩ => ⟨S_, .f32⟩
  | .hbm, ⟨50, _⟩ => ⟨S50000x96, .f32⟩
  | .hbm, ⟨51, _⟩ => ⟨S50000x96, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x96, .f32⟩
  | .hbm, ⟨61, _⟩ => ⟨S_, .f32⟩
  | .hbm, ⟨62, _⟩ => ⟨S50000x96, .f32⟩
  | .hbm, ⟨63, _⟩ => ⟨S800000x1, .i32⟩
  | .hbm, ⟨64, _⟩ => ⟨S50000x96, .f32⟩
  | .hbm, ⟨65, _⟩ => ⟨S50000x40, .f32⟩
  | .hbm, ⟨66, _⟩ => ⟨S1x40, .f32⟩
  | .hbm, ⟨67, _⟩ => ⟨S50000x40, .f32⟩
  | .hbm, ⟨68, _⟩ => ⟨S50000x40, .f32⟩
  | .hbm, ⟨69, _⟩ => ⟨S_, .f32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000x1, .f32⟩
  | .hbm, ⟨75, _⟩ => ⟨S50000x40, .f32⟩
  | .hbm, ⟨76, _⟩ => ⟨S50000x40, .f32⟩
  | .hbm, ⟨77, _⟩ => ⟨S50000x40, .f32⟩
  | .hbm, ⟨78, _⟩ => ⟨S_, .f32⟩
  | .hbm, ⟨79, _⟩ => ⟨S50000, .f32⟩
  | .hbm, ⟨80, _⟩ => ⟨S50000x1, .f32⟩
  | .hbm, ⟨81, _⟩ => ⟨S50000x1, .f32⟩
  | .hbm, ⟨82, _⟩ => ⟨S50000x40, .f32⟩
  | .hbm, ⟨83, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_cst : Ref sig .tc := ⟨.hbm, 29, rfl⟩
abbrev main_call0_v0 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call1_cst : Ref sig .tc := ⟨.hbm, 49, rfl⟩
abbrev main_call1_v0 : Ref sig .tc := ⟨.hbm, 50, rfl⟩
abbrev main_v33 : Ref sig .tc := ⟨.hbm, 51, rfl⟩
abbrev main_c_4 : Ref sig .tc := ⟨.hbm, 52, rfl⟩
abbrev main_v34 : Ref sig .tc := ⟨.hbm, 53, rfl⟩
abbrev main_v35 : Ref sig .tc := ⟨.hbm, 54, rfl⟩
abbrev main_c_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call2_cst : Ref sig .tc := ⟨.hbm, 69, rfl⟩
abbrev main_call2_v0 : Ref sig .tc := ⟨.hbm, 70, rfl⟩
abbrev main_call2_cst_0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_v6 : Ref sig .tc := ⟨.hbm, 77, rfl⟩
abbrev main_call2_cst_1 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_v48 : Ref sig .tc := ⟨.hbm, 83, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S_S50000x96 : S_.BroadcastsInDim S50000x96 (![] : Fin 0 → Fin S50000x96.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x96_S50000x96_1_0_0_1_n_n_wf : DotDims.WF S50000x128 S128x96 S50000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []
  dot_S50000x96_S96x40_S50000x40_1_0_0_1_n_n_wf : DotDims.WF S50000x96 S96x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x96_S96x40_S50000x40_1_0_0_1_n_n : DotDims S50000x96 S96x40 S50000x40 where
  lhsContracting := [1]
  rhsContracting := [0]
  lhsNonContracting := [0]
  rhsNonContracting := [1]
  lhsBatch := []
  rhsBatch := []
  wf := dot_S50000x96_S96x40_S50000x40_1_0_0_1_n_n_wf

class Facts : Prop extends Facts₀ where

variable [Facts]
-- ==== Proof.Spec.lean ====
/-
  What one layer of the network computes, at the ideal values, index by index.

  A layer takes a node-feature array `A` ([M, K]), a weight matrix `W` ([K, N]) and a bias row `β` (N entries):
  row `n` of the affine map is `y(n, o) = Σ_c A(n, c) · W(c, o) + β(o)`. The first two layers clamp it below at zero;
  the last one subtracts from each entry of a row the row's maximum and then the logarithm of the row's sum of
  exponentials (the logarithm of a softmax, computed the stable way). The row maximum is a fold of `max` over the
  row's entries starting from −∞ (the word `0xFF800000`), which is how both programs spell it.
-/
import Idealize.ShloMosaic.PureOps.Ideal
import Idealize.ShloMosaic.Lib.ValueIdx

noncomputable section

open scoped BigOperators

namespace Cert.Spec

open Idealize.ShloMosaic Idealize.ShloMosaic.ValueIdx

variable {M K N : ℕ}

/-- Row `n`, column `o` of `A · W + β`. -/
def affine (A : FVec Ideal ⟨2, ![M, K]⟩ .f32) (W : FVec Ideal ⟨2, ![K, N]⟩ .f32) (β : Fin N → Ideal .f32) (n : Fin M) (o : Fin N) :
    Ideal .f32 :=
  (∑ c : Fin K, A (ix2 n c) * W (ix2 c o)) + β o

/-- A hidden layer: the affine map clamped below at zero. -/
def reluLayer (A : FVec Ideal ⟨2, ![M, K]⟩ .f32) (W : FVec Ideal ⟨2, ![K, N]⟩ .f32) (β : Fin N → Ideal .f32) :
    FVec Ideal ⟨2, ![M, N]⟩ .f32 :=
  fun i => max (affine A W β (i 0) (i 1)) (Ideal.ofBits .f32 0x00000000#32)

/-- The maximum of a row's entries, folded from −∞. -/
def rowMax (y : Fin N → Ideal .f32) : Ideal .f32 :=
  (Finset.univ : Finset (Fin N)).fold max (Ideal.ofBits .f32 0xFF800000#32) y

/-- The output layer: each entry of a row of the affine map, less the row's maximum, less the logarithm of the sum over
    the row of the exponentials of the entries so shifted. -/
def logSoftmaxLayer (A : FVec Ideal ⟨2, ![M, K]⟩ .f32) (W : FVec Ideal ⟨2, ![K, N]⟩ .f32) (β : Fin N → Ideal .f32) :
    FVec Ideal ⟨2, ![M, N]⟩ .f32 :=
  fun i => (affine A W β (i 0) (i 1) - rowMax (affine A W β (i 0)))
    - Ideal.log (∑ k : Fin N, Ideal.exp (affine A W β (i 0) k - rowMax (affine A W β (i 0))))

end Cert.Spec

end
-- ==== Proof.LibMatmulAt.lean ====
/-
  A plain matrix product read at an entry, at the ideal values.

  For dimension numbers that contract the left operand's columns against the right operand's rows, with no batch
  axis — `[M, K] · [K, N] → [M, N]` — the product into a zero accumulator has, at row `o` and column `t`, the
  entry `∑ c, A[o, c] · B[c, t]`. The contraction's index set has one axis; the sum over it is re-indexed by that
  axis's coordinate.
-/
import Idealize.ShloMosaic.PureOps.Ideal.Laws
import Idealize.ShloMosaic.Lib.ValueIdx

noncomputable section

open scoped BigOperators

namespace Cert.LibMatmulAt

open Idealize.ShloMosaic Idealize.ShloMosaic.ValueIdx

variable {M K N : ℕ} (D : DotDims ⟨2, ![M, K]⟩ ⟨2, ![K, N]⟩ ⟨2, ![M, N]⟩)

/-- Two spellings of one axis read one coordinate. -/
theorem coord_congr {s : Shape} (i : s.Idx) (p q : ℕ) (hp : p < s.rank) (hq : q < s.rank) (h : p = q) :
    (i ⟨p, hp⟩).val = (i ⟨q, hq⟩).val := by subst h; rfl

/-- The left operand's row is the result's row. -/
theorem lhs_row (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_congr i _ _ _ _ (by simp [hb, hn])

/-- The right operand's column is the result's column. -/
theorem rhs_col (hb : D.rhsBatch = []) (hlb : D.lhsBatch = []) (hln : D.lhsNonContracting = [0]) (hn : D.rhsNonContracting = [1])
    (i : (⟨2, ![M, N]⟩ : Shape).Idx) (q : D.contr.Idx) :
    (D.rhsIdx i q 1).val = (i 1).val := by
  unfold DotDims.rhsIdx
  rw [dif_neg (by rw [hb]; exact List.not_mem_nil), dif_pos (by rw [hn]; exact List.mem_singleton.mpr rfl)]
  simp only [Fin.val_cast]
  exact coord_congr i _ _ _ _ (by simp [hn, hlb, hln])

/-- The contraction has one axis, of extent `K`. -/
theorem contr_rank (hc : D.lhsContracting = [1]) : D.contr.rank = 1 := by rw [D.rank_contr, hc]; rfl

theorem contr_size (hc : D.lhsContracting = [1]) : D.contr.size ⟨0, by rw [contr_rank D hc]; exact Nat.one_pos⟩ = K := by
  rw [D.size_contr 0 (by rw [hc]; exact Nat.one_pos)]
  simp [hc]

/-- THE PRODUCT AT AN ENTRY. -/
theorem matmul_zero_at {φ₁ φ₂ : FTy} (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ φ₁) (B : FVec Ideal ⟨2, ![K, N]⟩ φ₂) (o : Fin M) (t : Fin N) :
    FloatOps.matmul D prec A B (constant ⟨2, ![M, N]⟩ .f32 0x00000000#32) (ix2 o t) = ∑ c : Fin K, A (ix2 o c) * B (ix2 c t) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_row D hlb hln _ _
      | ⟨1, _⟩ => exact (D.lhsIdx_val_of_single hlc _ _).trans hk)
  have er : D.rhsIdx (ix2 o t) ((contrEquiv1 D K (contr_rank D hlc) (contr_size D hlc)).symm k) = ix2 k t :=
    funext fun a => Fin.ext (by
      match a with
      | ⟨0, _⟩ => exact (D.rhsIdx_val_of_single hrc _ _).trans hk
      | ⟨1, _⟩ => exact rhs_col D hrb hlb hln hrn _ _)
  rw [el, er]

end Cert.LibMatmulAt

end
-- ==== Proof.KPay.lean ====
/-
  What each call's body stores, read at an entry of its block, at the ideal values.

  Every body loads a block of 5000 rows of node features, the whole weight matrix and the bias row, and stores
  `A·W + b` of them through its activation: the matrix product into a zero accumulator is the sum over the
  contracted axis (the narrowing of the operands to bf16 changes nothing at the ideal values), and the bias row
  is broadcast down the rows.
-/
import proofs.«159145_j78408922955888_1_alg».proof.Proof.Gen.KernelIdeal.Skeleton
import proofs.«159145_j78408922955888_1_alg».proof.Proof.Spec
import proofs.«159145_j78408922955888_1_alg».proof.Proof.LibMatmulAt
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- A row vector broadcast down `R` rows, read at (p, q), is its entry `q`. -/
theorem biasRow_at {R N : ℕ} (x : FVec Ideal ⟨2, ![1, N]⟩ .f32) (h : (⟨2, ![1, N]⟩ : Shape).Broadcasts ⟨2, ![R, N]⟩) (hN : N ≠ 1)
    (p : Fin R) (q : Fin N) : broadcastTo ⟨2, ![R, N]⟩ x h (ix2 p q) = x (ix2 0 q) := by
  refine broadcastTo_apply x h (ix2 p q) (ix2 0 q) fun a => ?_
  match a with
  | ⟨0, _⟩ => rfl
  | ⟨1, _⟩ => show q.val = if N = 1 then 0 else q.val; rw [if_neg hN]

/-- The first call's stored value at (p, q): the affine map of the block's row `p`, clamped below at zero. -/
theorem pay0_at (x0 : Vec Ideal S5000x128 .f32) (x1 : Vec Ideal S128x96 .f32) (x2 : Vec Ideal S1x96 .f32) (p : Fin 5000) (q : Fin 96) :
    k0_pay1 (F := Ideal) x0 x1 x2 (ix2 p q)
      = max (Spec.affine x0 x1 (fun o => x2 (ix2 0 o)) p q) (Ideal.ofBits .f32 0x00000000#32) := by
  unfold k0_pay1 Spec.affine
  dsimp only
  rw [shapeCast_self, shapeCast_self, maximumf_apply, addf_apply]
  exact congrArg₂ max (congrArg₂ (· + ·)
    (LibMatmulAt.matmul_zero_at dot_S5000x128_S128x96_S5000x96_1_0_0_1_n_n rfl rfl rfl rfl rfl rfl none _ _ p q)
    (biasRow_at x2 _ (by decide) p q)) rfl

/-- The second call's stored value at (p, q): the same, over 96 input features. -/
theorem pay1_at (x0 : Vec Ideal S5000x96 .f32) (x1 : Vec Ideal S96x96 .f32) (x2 : Vec Ideal S1x96 .f32) (p : Fin 5000) (q : Fin 96) :
    k1_pay1 (F := Ideal) x0 x1 x2 (ix2 p q)
      = max (Spec.affine x0 x1 (fun o => x2 (ix2 0 o)) p q) (Ideal.ofBits .f32 0x00000000#32) := by
  unfold k1_pay1 Spec.affine
  dsimp only
  rw [shapeCast_self, shapeCast_self, maximumf_apply, addf_apply]
  exact congrArg₂ max (congrArg₂ (· + ·)
    (LibMatmulAt.matmul_zero_at dot_S5000x96_S96x96_S5000x96_1_0_0_1_n_n rfl rfl rfl rfl rfl rfl none _ _ p q)
    (biasRow_at x2 _ (by decide) p q)) rfl

end Cert.KernelIdeal.Hand

end
-- ==== Proof.KArr0.lean ====
/-
  The first call's result array after its ten grid points, as one function of the arrays it finds.

  Point `t` stages rows `5000 t … 5000 t + 4999` of the aggregated features with the whole weight matrix and bias row,
  and writes back the same rows of the result; entry (p, q) of what it writes depends on row `p` of its block only, so
  block `t` of the written array is block `t` of the layer applied to the whole arrays, and the ten blocks tile it.
-/
import proofs.«159145_j78408922955888_1_alg».proof.Proof.Gen.KernelIdeal.Frame
import proofs.«159145_j78408922955888_1_alg».proof.Proof.KPay
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The block indices of the first call's windows over its ten grid points: the node features and the result move
    one block of 5000 rows per point; the weights and the bias row stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The features' block at point `t` is rows `5000 t … 5000 t + 4999` of the aggregated array. -/
theorem iblk0_0_apply (c : Dev nD) (t : Fin cfg0.N) (x : S5000x128.Idx) (k : S50000x128.Idx)
    (hk0 : (k 0).val = 5000 * t.val + (x 0).val) (hk1 : (k 1).val = (x 1).val) :
    (iblk0 V c 0 t : Vec Ideal S5000x128 .f32) x = (V c main_v13 : S50000x128.Idx → Elt Ideal .f32) k := by
  obtain ⟨e0, e1, -⟩ := idx_facts0 t
  unfold iblk0
  rw [View.read_apply]
  show V c main_v13 _ = V c main_v13 _
  congr 1
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The weights' block at every point is the whole matrix. -/
theorem iblk0_1_apply (c : Dev nD) (t : Fin cfg0.N) (x : S128x96.Idx) :
    (iblk0 V c 1 t : Vec Ideal S128x96 .f32) x = (V c main_arg1 : S128x96.Idx → Elt Ideal .f32) x := by
  obtain ⟨-, -, e0, e1, -⟩ := idx_facts0 t
  unfold iblk0
  rw [View.read_apply]
  show V c main_arg1 _ = V c main_arg1 _
  congr 1
  funext a
  apply Fin.ext
  match a with
  | ⟨0, _⟩ => show win0_1.index t 0 * 128 + 1 * (x 0).val = (x 0).val; rw [e0]; omega
  | ⟨1, _⟩ => show win0_1.index t 1 * 96 + 1 * (x 1).val = (x 1).val; rw [e1]; omega

/-- The bias row's block at every point is the whole row. -/
theorem iblk0_2_apply (c : Dev nD) (t : Fin cfg0.N) (x : S1x96.Idx) :
    (iblk0 V c 2 t : Vec Ideal S1x96 .f32) x = (V c main_v14 : S1x96.Idx → Elt Ideal .f32) x := by
  obtain ⟨-, -, -, -, e0, e1, -⟩ := idx_facts0 t
  unfold iblk0
  rw [View.read_apply]
  show V c main_v14 _ = V c main_v14 _
  congr 1
  funext a
  apply Fin.ext
  match a with
  | ⟨0, _⟩ => show win0_2.index t 0 * 1 + 1 * (x 0).val = (x 0).val; rw [e0]; omega
  | ⟨1, _⟩ => show win0_2.index t 1 * 96 + 1 * (x 1).val = (x 1).val; rw [e1]; omega

/-- The first layer as one function of the arrays the call finds. -/
abbrev layer0 (c : Dev nD) : S50000x96.Idx → Elt Ideal .f32 :=
  Spec.reluLayer (V c main_v13 : S50000x128.Idx → Elt Ideal .f32) (V c main_arg1 : S128x96.Idx → Elt Ideal .f32)
    (fun o => (V c main_v14 : S1x96.Idx → Elt Ideal .f32) (ix2 0 o))

/-- What point `t` writes back is block `t` of the layer. -/
theorem flushed0_eq (c : Dev nD) (t : Fin cfg0.N) :
    (dat0 V c).flushed 3 t = ((cfg0.win 3).blk t).view.read (Elt Ideal) (layer0 V c) := by
  show (cfg0.win 3).cut (grid0.coords t) ((dat0 V c).after 3 t) = _
  rw [after0_3]
  unfold out0_3
  rw [View.canon_unit_zero hz0]
  simp only [View.ld_unit_zero (S := S5000x128) hz0, View.ld_unit_zero (S := S128x96) hz0, View.ld_unit_zero (S := S1x96) hz0]
  funext j
  have hp : (j 0).val < 5000 := ((win0 3).xinj (grid0.coords t) j 0).isLt
  have hq : (j 1).val < 96 := ((win0 3).xinj (grid0.coords t) j 1).isLt
  have hpq : ((win0 3).xinj (grid0.coords t) j : S5000x96.Idx) = ix2 ⟨(j 0).val, hp⟩ ⟨(j 1).val, hq⟩ :=
    funext fun a => by match a with | ⟨0, _⟩ => rfl | ⟨1, _⟩ => rfl
  obtain ⟨-, -, -, -, -, -, e0, e1⟩ := idx_facts0 t
  have hi0 : ((((cfg0.win 3).blk t).view.emb j) 0).val = 5000 * t.val + (j 0).val := by
    show win0_3.index t 0 * 5000 + 1 * (j 0).val = _; rw [e0]; omega
  have hi1 : ((((cfg0.win 3).blk t).view.emb j) 1).val = (j 1).val := by
    show win0_3.index t 1 * 96 + 1 * (j 1).val = _; rw [e1]; omega
  show k0_pay1 (F := Ideal) (iblk0 V c 0 t) (iblk0 V c 1 t) (iblk0 V c 2 t) ((win0 3).xinj (grid0.coords t) j)
    = layer0 V c (((cfg0.win 3).blk t).view.emb j)
  refine (congrArg (k0_pay1 (F := Ideal) (iblk0 V c 0 t) (iblk0 V c 1 t) (iblk0 V c 2 t)) hpq).trans ?_
  refine (pay0_at (iblk0 V c 0 t) (iblk0 V c 1 t) (iblk0 V c 2 t) ⟨(j 0).val, hp⟩ ⟨(j 1).val, hq⟩).trans ?_
  have haff : Spec.affine (iblk0 V c 0 t : Vec Ideal S5000x128 .f32) (iblk0 V c 1 t : Vec Ideal S128x96 .f32)
        (fun o => (iblk0 V c 2 t : Vec Ideal S1x96 .f32) (ix2 0 o)) ⟨(j 0).val, hp⟩
      = Spec.affine (V c main_v13 : S50000x128.Idx → Elt Ideal .f32) (V c main_arg1 : S128x96.Idx → Elt Ideal .f32)
        (fun o => (V c main_v14 : S1x96.Idx → Elt Ideal .f32) (ix2 0 o)) ((((cfg0.win 3).blk t).view.emb j) 0) := by
    funext k
    unfold Spec.affine
    refine congrArg₂ (· + ·) (Finset.sum_congr rfl fun r _ => congrArg₂ (· * ·) ?_ ?_) ?_
    · exact iblk0_0_apply V c t (ix2 ⟨(j 0).val, hp⟩ r) (ix2 _ r) hi0 rfl
    · exact iblk0_1_apply V c t (ix2 r k)
    · exact iblk0_2_apply V c t (ix2 0 k)
  have hcol : (⟨(j 1).val, hq⟩ : Fin 96) = (((cfg0.win 3).blk t).view.emb j) 1 := Fin.ext hi1.symm
  unfold layer0 Spec.reluLayer
  rw [haff, hcol]

/-- An index of the result array is in point `t`'s block iff each coordinate is in the block's range on its axis. -/
theorem mem_blk0 (t : Fin cfg0.N) (i : S50000x96.Idx) :
    i ∈ ((cfg0.win 3).blk t).view.set ↔ ∀ a : Fin 2, win0_3.index t a * S5000x96.size a ≤ (i a).val ∧ (i a).val < win0_3.index t a * S5000x96.size a + S5000x96.size a := by
  show i ∈ ((View.whole main_v15).slice (win0_3.rect t)).set ↔ _
  rw [View.set_slice_whole, Rect.mem_set_unit]
  exact Iff.rfl

/-- The ten blocks of 5000 rows tile the result array, so after the call it holds the layer. -/
theorem arr0 (c : Dev nD) : (dat0 V c).arrAt 3 cfg0.N = layer0 V c :=
  (dat0 V c).arrAt_eq_of_cover 3 (layer0 V c) (fun t _ => flushed0_eq V c t) fun i => by
    have h0 : (i 0).val < 50000 := (i 0).isLt
    have h1 : (i 1).val < 96 := (i 1).isLt
    have hN : grid0.N = 10 := N_0
    refine ⟨⟨(i 0).val / 5000, by rw [show cfg0.N = 10 from N_0]; omega⟩, flush0_3 _, ?_⟩
    rw [mem_blk0]
    obtain ⟨-, -, -, -, -, -, e0, e1⟩ := idx_facts0 ⟨(i 0).val / 5000, by rw [show cfg0.N = 10 from N_0]; omega⟩
    intro a
    match a with
    | ⟨0, _⟩ => show win0_3.index _ 0 * 5000 ≤ (i 0).val ∧ (i 0).val < win0_3.index _ 0 * 5000 + 5000; rw [e0]; show (i 0).val / 5000 * 5000 ≤ (i 0).val ∧ (i 0).val < (i 0).val / 5000 * 5000 + 5000; omega
    | ⟨1, _⟩ => show win0_3.index _ 1 * 96 ≤ (i 1).val ∧ (i 1).val < win0_3.index _ 1 * 96 + 96; rw [e1]; omega

end Cert.KernelIdeal.Hand

end
-- ==== Proof.KArr1.lean ====
/-
  The second call's result array after its ten grid points, as one function of the arrays it finds.

  Point `t` stages rows `5000 t … 5000 t + 4999` of the aggregated features with the whole weight matrix and bias row,
  and writes back the same rows of the result; entry (p, q) of what it writes depends on row `p` of its block only, so
  block `t` of the written array is block `t` of the layer applied to the whole arrays, and the ten blocks tile it.
-/
import proofs.«159145_j78408922955888_1_alg».proof.Proof.Gen.KernelIdeal.Frame
import proofs.«159145_j78408922955888_1_alg».proof.Proof.KPay
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The block indices of the second call's windows over its ten grid points: the node features and the result move
    one block of 5000 rows per point; the weights and the bias row stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The features' block at point `t` is rows `5000 t … 5000 t + 4999` of the aggregated array. -/
theorem iblk1_0_apply (c : Dev nD) (t : Fin cfg1.N) (x : S5000x96.Idx) (k : S50000x96.Idx)
    (hk0 : (k 0).val = 5000 * t.val + (x 0).val) (hk1 : (k 1).val = (x 1).val) :
    (iblk1 V c 0 t : Vec Ideal S5000x96 .f32) x = (V c main_v25 : S50000x96.Idx → Elt Ideal .f32) k := by
  obtain ⟨e0, e1, -⟩ := idx_facts1 t
  unfold iblk1
  rw [View.read_apply]
  show V c main_v25 _ = V c main_v25 _
  congr 1
  funext a
  apply Fin.ext
  match a with
  | ⟨0, _⟩ => show win1_0.index t 0 * 5000 + 1 * (x 0).val = (k 0).val; rw [e0, hk0]; omega
  | ⟨1, _⟩ => show win1_0.index t 1 * 96 + 1 * (x 1).val = (k 1).val; rw [e1, hk1]; omega

/-- The weights' block at every point is the whole matrix. -/
theorem iblk1_1_apply (c : Dev nD) (t : Fin cfg1.N) (x : S96x96.Idx) :
    (iblk1 V c 1 t : Vec Ideal S96x96 .f32) x = (V c main_arg3 : S96x96.Idx → Elt Ideal .f32) x := by
  obtain ⟨-, -, e0, e1, -⟩ := idx_facts1 t
  unfold iblk1
  rw [View.read_apply]
  show V c main_arg3 _ = V c main_arg3 _
  congr 1
  funext a
  apply Fin.ext
  match a with
  | ⟨0, _⟩ => show win1_1.index t 0 * 96 + 1 * (x 0).val = (x 0).val; rw [e0]; omega
  | ⟨1, _⟩ => show win1_1.index t 1 * 96 + 1 * (x 1).val = (x 1).val; rw [e1]; omega

/-- The bias row's block at every point is the whole row. -/
theorem iblk1_2_apply (c : Dev nD) (t : Fin cfg1.N) (x : S1x96.Idx) :
    (iblk1 V c 2 t : Vec Ideal S1x96 .f32) x = (V c main_v26 : S1x96.Idx → Elt Ideal .f32) x := by
  obtain ⟨-, -, -, -, e0, e1, -⟩ := idx_facts1 t
  unfold iblk1
  rw [View.read_apply]
  show V c main_v26 _ = V c main_v26 _
  congr 1
  funext a
  apply Fin.ext
  match a with
  | ⟨0, _⟩ => show win1_2.index t 0 * 1 + 1 * (x 0).val = (x 0).val; rw [e0]; omega
  | ⟨1, _⟩ => show win1_2.index t 1 * 96 + 1 * (x 1).val = (x 1).val; rw [e1]; omega

/-- The second layer as one function of the arrays the call finds. -/
abbrev layer1 (c : Dev nD) : S50000x96.Idx → Elt Ideal .f32 :=
  Spec.reluLayer (V c main_v25 : S50000x96.Idx → Elt Ideal .f32) (V c main_arg3 : S96x96.Idx → Elt Ideal .f32)
    (fun o => (V c main_v26 : S1x96.Idx → Elt Ideal .f32) (ix2 0 o))

/-- What point `t` writes back is block `t` of the layer. -/
theorem flushed1_eq (c : Dev nD) (t : Fin cfg1.N) :
    (dat1 V c).flushed 3 t = ((cfg1.win 3).blk t).view.read (Elt Ideal) (layer1 V c) := by
  show (cfg1.win 3).cut (grid1.coords t) ((dat1 V c).after 3 t) = _
  rw [after1_3]
  unfold out1_3
  rw [View.canon_unit_zero hz1]
  simp only [View.ld_unit_zero (S := S5000x96) hz1, View.ld_unit_zero (S := S96x96) hz1, View.ld_unit_zero (S := S1x96) hz1]
  funext j
  have hp : (j 0).val < 5000 := ((win1 3).xinj (grid1.coords t) j 0).isLt
  have hq : (j 1).val < 96 := ((win1 3).xinj (grid1.coords t) j 1).isLt
  have hpq : ((win1 3).xinj (grid1.coords t) j : S5000x96.Idx) = ix2 ⟨(j 0).val, hp⟩ ⟨(j 1).val, hq⟩ :=
    funext fun a => by match a with | ⟨0, _⟩ => rfl | ⟨1, _⟩ => rfl
  obtain ⟨-, -, -, -, -, -, e0, e1⟩ := idx_facts1 t
  have hi0 : ((((cfg1.win 3).blk t).view.emb j) 0).val = 5000 * t.val + (j 0).val := by
    show win1_3.index t 0 * 5000 + 1 * (j 0).val = _; rw [e0]; omega
  have hi1 : ((((cfg1.win 3).blk t).view.emb j) 1).val = (j 1).val := by
    show win1_3.index t 1 * 96 + 1 * (j 1).val = _; rw [e1]; omega
  show k1_pay1 (F := Ideal) (iblk1 V c 0 t) (iblk1 V c 1 t) (iblk1 V c 2 t) ((win1 3).xinj (grid1.coords t) j)
    = layer1 V c (((cfg1.win 3).blk t).view.emb j)
  refine (congrArg (k1_pay1 (F := Ideal) (iblk1 V c 0 t) (iblk1 V c 1 t) (iblk1 V c 2 t)) hpq).trans ?_
  refine (pay1_at (iblk1 V c 0 t) (iblk1 V c 1 t) (iblk1 V c 2 t) ⟨(j 0).val, hp⟩ ⟨(j 1).val, hq⟩).trans ?_
  have haff : Spec.affine (iblk1 V c 0 t : Vec Ideal S5000x96 .f32) (iblk1 V c 1 t : Vec Ideal S96x96 .f32)
        (fun o => (iblk1 V c 2 t : Vec Ideal S1x96 .f32) (ix2 0 o)) ⟨(j 0).val, hp⟩
      = Spec.affine (V c main_v25 : S50000x96.Idx → Elt Ideal .f32) (V c main_arg3 : S96x96.Idx → Elt Ideal .f32)
        (fun o => (V c main_v26 : S1x96.Idx → Elt Ideal .f32) (ix2 0 o)) ((((cfg1.win 3).blk t).view.emb j) 0) := by
    funext k
    unfold Spec.affine
    refine congrArg₂ (· + ·) (Finset.sum_congr rfl fun r _ => congrArg₂ (· * ·) ?_ ?_) ?_
    · exact iblk1_0_apply V c t (ix2 ⟨(j 0).val, hp⟩ r) (ix2 _ r) hi0 rfl
    · exact iblk1_1_apply V c t (ix2 r k)
    · exact iblk1_2_apply V c t (ix2 0 k)
  have hcol : (⟨(j 1).val, hq⟩ : Fin 96) = (((cfg1.win 3).blk t).view.emb j) 1 := Fin.ext hi1.symm
  unfold layer1 Spec.reluLayer
  rw [haff, hcol]

/-- An index of the result array is in point `t`'s block iff each coordinate is in the block's range on its axis. -/
theorem mem_blk1 (t : Fin cfg1.N) (i : S50000x96.Idx) :
    i ∈ ((cfg1.win 3).blk t).view.set ↔ ∀ a : Fin 2, win1_3.index t a * S5000x96.size a ≤ (i a).val ∧ (i a).val < win1_3.index t a * S5000x96.size a + S5000x96.size a := by
  show i ∈ ((View.whole main_v27).slice (win1_3.rect t)).set ↔ _
  rw [View.set_slice_whole, Rect.mem_set_unit]
  exact Iff.rfl

/-- The ten blocks of 5000 rows tile the result array, so after the call it holds the layer. -/
theorem arr1 (c : Dev nD) : (dat1 V c).arrAt 3 cfg1.N = layer1 V c :=
  (dat1 V c).arrAt_eq_of_cover 3 (layer1 V c) (fun t _ => flushed1_eq V c t) fun i => by
    have h0 : (i 0).val < 50000 := (i 0).isLt
    have h1 : (i 1).val < 96 := (i 1).isLt
    have hN : grid1.N = 10 := N_1
    refine ⟨⟨(i 0).val / 5000, by rw [show cfg1.N = 10 from N_1]; omega⟩, flush1_3 _, ?_⟩
    rw [mem_blk1]
    obtain ⟨-, -, -, -, -, -, e0, e1⟩ := idx_facts1 ⟨(i 0).val / 5000, by rw [show cfg1.N = 10 from N_1]; omega⟩
    intro a
    match a with
    | ⟨0, _⟩ => show win1_3.index _ 0 * 5000 ≤ (i 0).val ∧ (i 0).val < win1_3.index _ 0 * 5000 + 5000; rw [e0]; show (i 0).val / 5000 * 5000 ≤ (i 0).val ∧ (i 0).val < (i 0).val / 5000 * 5000 + 5000; omega
    | ⟨1, _⟩ => show win1_3.index _ 1 * 96 ≤ (i 1).val ∧ (i 1).val < win1_3.index _ 1 * 96 + 96; rw [e1]; omega

end Cert.KernelIdeal.Hand

end
-- ==== Proof.KPay2.lean ====
/-
  What the last call's body stores, read at an entry of its block, at the ideal values: the affine map of the block's
  row, less the row's maximum, less the logarithm of the row's sum of exponentials of the entries so shifted.

  The body takes the lane maximum of each row from −∞ and the lane sum of the exponentials from zero, each kept as a
  column ([R] cast to [R, 1]) and broadcast back along the lanes. Read at a row `p`, the lane maximum is the fold of
  `max` over the row's entries and the lane sum is the sum over them: the reduced index with the lane `k` put back
  is the entry `(p, k)`.
-/
import proofs.«159145_j78408922955888_1_alg».proof.Proof.Gen.KernelIdeal.Skeleton
import proofs.«159145_j78408922955888_1_alg».proof.Proof.Spec
import proofs.«159145_j78408922955888_1_alg».proof.Proof.LibMatmulAt
import proofs.«159145_j78408922955888_1_alg».proof.Proof.KPay
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Hand

open Cert.KernelIdeal Cert.KernelIdeal.Gen Idealize.ShloMosaic Idealize.ShloMosaic.ValueIdx

section Rows

variable {R N : ℕ}

/-- The row index `p` with the lane `k` put back on the reduced axis is the entry `(p, k)`. -/
theorem lift_row_lane (h : (⟨2, ![R, N]⟩ : Shape).Reduces [1] (⟨1, ![R]⟩ : Shape)) (p : Fin R)
    (k : Fin ((⟨2, ![R, N]⟩ : Shape).size 1)) : h.lift (ix1 p) k = ix2 p (⟨k.val, k.isLt⟩ : Fin N) := by
  funext c; apply Fin.ext
  fin_cases c <;> rfl

/-- `R` entries cast to a column `[R, 1]`, read at `(p, u)`, give entry `p`. -/
theorem columnCast_at {α : Type} (z : (⟨1, ![R]⟩ : Shape).Idx → α) (h : (⟨1, ![R]⟩ : Shape).ShapeCasts ⟨2, ![R, 1]⟩)
    (p : Fin R) (u : Fin 1) : shapeCast ⟨2, ![R, 1]⟩ z h (ix2 p u) = z (ix1 p) := by
  refine shapeCast_apply z h (ix2 p u) (ix1 p) ?_
  rw [Shape.rowMajor_val_one, Shape.rowMajor_val_two]
  show p.val = p.val * 1 + u.val
  have := u.isLt
  omega

/-- A column `[R, 1]` broadcast along `N` lanes, read at `(p, q)`, gives the column's entry `p`. -/
theorem columnBroadcast_at {α : Type} (z : (⟨2, ![R, 1]⟩ : Shape).Idx → α)
    (h : (⟨2, ![R, 1]⟩ : Shape).Broadcasts ⟨2, ![R, N]⟩) (hR : R ≠ 1) (p : Fin R) (q : Fin N) :
    broadcastTo ⟨2, ![R, N]⟩ z h (ix2 p q) = z (ix2 p 0) := by
  refine broadcastTo_apply z h (ix2 p q) (ix2 p 0) fun a => ?_
  match a with
  | ⟨0, _⟩ => show p.val = if R = 1 then 0 else p.val; rw [if_neg hR]
  | ⟨1, _⟩ => rfl

/-- The exponential and the logarithm of a block are taken entry by entry. -/
theorem exp_at {s : Shape} (x : FVec Ideal s .f32) (i : s.Idx) : exp x i = Ideal.exp (x i) := rfl

theorem log_at {s : Shape} (x : FVec Ideal s .f32) (i : s.Idx) : log x i = Ideal.log (x i) := rfl

/-- The lane maximum of a block from −∞, at row `p`: the fold of `max` over the row's entries. -/
theorem laneMax_at (V : FVec Ideal ⟨2, ![R, N]⟩ .f32) (h : (⟨2, ![R, N]⟩ : Shape).Reduces [1] (⟨1, ![R]⟩ : Shape))
    (hφ : FKind.Formats .f32) (hacc : (0xFF800000#32 : BitVec FTy.f32.bits) = FKind.maximumf.neutral .f32 hφ) (p : Fin R) :
    multiReduction (F := Ideal) .maximumf [1] ⟨1, ![R]⟩ V 0xFF800000#32 h hφ hacc (ix1 p)
      = Spec.rowMax fun k : Fin N => V (ix2 p k) := by
  refine (Ideal.multiReduction_maximumf_single V _ h hφ hacc (ix1 p)).trans ?_
  unfold Spec.rowMax
  exact congrArg (fun f : Fin N → Ideal .f32 => Finset.fold max (Ideal.ofBits .f32 0xFF800000#32) f (Finset.univ : Finset (Fin N)))
    (funext fun k => congrArg V (lift_row_lane h p k))

/-- The lane sum of a block from zero, at row `p`: the sum of the row's entries. -/
theorem laneSum_at (V : FVec Ideal ⟨2, ![R, N]⟩ .f32) (h : (⟨2, ![R, N]⟩ : Shape).Reduces [1] (⟨1, ![R]⟩ : Shape))
    (hφ : FKind.Formats .f32) (hacc : (0x00000000#32 : BitVec FTy.f32.bits) = FKind.add.neutral .f32 hφ) (p : Fin R) :
    multiReduction (F := Ideal) .add [1] ⟨1, ![R]⟩ V 0x00000000#32 h hφ hacc (ix1 p) = ∑ k : Fin N, V (ix2 p k) := by
  refine (Ideal.multiReduction_add_single V _ h hφ hacc (ix1 p)).trans ?_
  exact Finset.sum_congr rfl fun k _ => congrArg V (lift_row_lane h p k)

/-- A block less its rows' maxima (each kept as a column and broadcast back), at `(p, q)`. -/
theorem lessRowMax_at (V : FVec Ideal ⟨2, ![R, N]⟩ .f32) (hR : R ≠ 1)
    (hr : (⟨2, ![R, N]⟩ : Shape).Reduces [1] (⟨1, ![R]⟩ : Shape)) (hφ : FKind.Formats .f32)
    (hm : (0xFF800000#32 : BitVec FTy.f32.bits) = FKind.maximumf.neutral .f32 hφ)
    (hc : (⟨1, ![R]⟩ : Shape).ShapeCasts ⟨2, ![R, 1]⟩) (hb : (⟨2, ![R, 1]⟩ : Shape).Broadcasts ⟨2, ![R, N]⟩)
    (p : Fin R) (q : Fin N) :
    subf V (broadcastTo ⟨2, ![R, N]⟩ (shapeCast ⟨2, ![R, 1]⟩
        (multiReduction (F := Ideal) .maximumf [1] ⟨1, ![R]⟩ V 0xFF800000#32 hr hφ hm) hc) hb) (ix2 p q)
      = V (ix2 p q) - Spec.rowMax fun k : Fin N => V (ix2 p k) := by
  rw [subf_apply, columnBroadcast_at _ hb hR p q, columnCast_at _ hc p 0, laneMax_at V hr hφ hm p]

/-- THE ROWS' LOG-SOFTMAX AS THE BODY SPELLS IT, at `(p, q)`, for a block whose row `p` is `y`. -/
theorem logSoftmaxRows_at (V : FVec Ideal ⟨2, ![R, N]⟩ .f32) (hR : R ≠ 1)
    (hr : (⟨2, ![R, N]⟩ : Shape).Reduces [1] (⟨1, ![R]⟩ : Shape)) (hφ : FKind.Formats .f32)
    (hm : (0xFF800000#32 : BitVec FTy.f32.bits) = FKind.maximumf.neutral .f32 hφ)
    (ha : (0x00000000#32 : BitVec FTy.f32.bits) = FKind.add.neutral .f32 hφ)
    (hc : (⟨1, ![R]⟩ : Shape).ShapeCasts ⟨2, ![R, 1]⟩) (hb : (⟨2, ![R, 1]⟩ : Shape).Broadcasts ⟨2, ![R, N]⟩)
    (p : Fin R) (q : Fin N) (y : Fin N → Ideal .f32) (hy : ∀ k, V (ix2 p k) = y k) :
    subf (subf V (broadcastTo ⟨2, ![R, N]⟩ (shapeCast ⟨2, ![R, 1]⟩
          (multiReduction (F := Ideal) .maximumf [1] ⟨1, ![R]⟩ V 0xFF800000#32 hr hφ hm) hc) hb))
        (broadcastTo ⟨2, ![R, N]⟩ (log (shapeCast ⟨2, ![R, 1]⟩
          (multiReduction (F := Ideal) .add [1] ⟨1, ![R]⟩
            (exp (subf V (broadcastTo ⟨2, ![R, N]⟩ (shapeCast ⟨2, ![R, 1]⟩
              (multiReduction (F := Ideal) .maximumf [1] ⟨1, ![R]⟩ V 0xFF800000#32 hr hφ hm) hc) hb)))
            0x00000000#32 hr hφ ha) hc)) hb) (ix2 p q)
      = (y q - Spec.rowMax y) - Ideal.log (∑ k : Fin N, Ideal.exp (y k - Spec.rowMax y)) := by
  have ey : (fun k : Fin N => V (ix2 p k)) = y := funext hy
  rw [subf_apply, lessRowMax_at V hR hr hφ hm hc hb p q, columnBroadcast_at _ hb hR p q, log_at,
    columnCast_at _ hc p 0, laneSum_at _ hr hφ ha p]
  simp only [exp_at, lessRowMax_at V hR hr hφ hm hc hb p]
  rw [ey, hy q]
  simp only [hy]

end Rows

/-- The block's affine map as the body computes it, at `(p, k)`: the product into the zero accumulator is the sum
    over the contracted axis, and the bias row is broadcast down the rows. -/
theorem blockAffine_at (x0 : Vec Ideal S5000x96 .f32) (x1 : Vec Ideal S96x40 .f32) (x2 : Vec Ideal S1x40 .f32) (p : Fin 5000) (k : Fin 40) :
    addf (matmul dot_S5000x96_S96x40_S5000x40_1_0_0_1_n_n none
        (truncf .bf16 (shapeCast S5000x96 x0 shapeCasts_S5000x96_S5000x96) bitsLt_bf16_f32) (truncf .bf16 x1 bitsLt_bf16_f32)
        (constant (F := Ideal) S5000x40 .f32 0x00000000#32))
      (broadcastTo S5000x40 (shapeCast S1x40 x2 shapeCasts_S1x40_S1x40) broadcasts_S1x40_S5000x40) (ix2 p k)
      = Spec.affine x0 x1 (fun o => x2 (ix2 0 o)) p k := by
  unfold Spec.affine
  rw [shapeCast_self, shapeCast_self, addf_apply]
  exact congrArg₂ (· + ·)
    (LibMatmulAt.matmul_zero_at dot_S5000x96_S96x40_S5000x40_1_0_0_1_n_n rfl rfl rfl rfl rfl rfl none _ _ p k)
    (biasRow_at x2 _ (by decide) p k)

/-- The last call's stored value at (p, q). -/
theorem pay2_at (x0 : Vec Ideal S5000x96 .f32) (x1 : Vec Ideal S96x40 .f32) (x2 : Vec Ideal S1x40 .f32) (p : Fin 5000) (q : Fin 40) :
    k2_pay1 (F := Ideal) x0 x1 x2 (ix2 p q)
      = (Spec.affine x0 x1 (fun o => x2 (ix2 0 o)) p q - Spec.rowMax (Spec.affine x0 x1 (fun o => x2 (ix2 0 o)) p))
        - Ideal.log (∑ k : Fin 40, Ideal.exp (Spec.affine x0 x1 (fun o => x2 (ix2 0 o)) p k
            - Spec.rowMax (Spec.affine x0 x1 (fun o => x2 (ix2 0 o)) p))) := by
  unfold k2_pay1
  dsimp only
  exact logSoftmaxRows_at _ (by decide) _ _ _ _ _ _ p q _ (blockAffine_at x0 x1 x2 p)

end Cert.KernelIdeal.Hand

end
-- ==== Proof.KArr2.lean ====
/- =>Proof.KPay2
' 'The first call'"'"'s result array=>The last call'"'"'s result array' 'The first layer as=>The output layer as' 'first call'"'"'s windows=>last call'"'"'s windows' -/
/-
  The last call's result array after its ten grid points, as one function of the arrays it finds.

  Point `t` stages rows `5000 t … 5000 t + 4999` of the aggregated features with the whole weight matrix and bias row,
  and writes back the same rows of the result; entry (p, q) of what it writes depends on row `p` of its block only, so
  block `t` of the written array is block `t` of the layer applied to the whole arrays, and the ten blocks tile it.
-/
import proofs.«159145_j78408922955888_1_alg».proof.Proof.Gen.KernelIdeal.Frame
import proofs.«159145_j78408922955888_1_alg».proof.Proof.KPay2
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The block indices of the last call's windows over its ten grid points: the node features and the result move
    one block of 5000 rows per point; the weights and the bias row stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The features' block at point `t` is rows `5000 t … 5000 t + 4999` of the aggregated array. -/
theorem iblk2_0_apply (c : Dev nD) (t : Fin cfg2.N) (x : S5000x96.Idx) (k : S50000x96.Idx)
    (hk0 : (k 0).val = 5000 * t.val + (x 0).val) (hk1 : (k 1).val = (x 1).val) :
    (iblk2 V c 0 t : Vec Ideal S5000x96 .f32) x = (V c main_v37 : S50000x96.Idx → Elt Ideal .f32) k := by
  obtain ⟨e0, e1, -⟩ := idx_facts2 t
  unfold iblk2
  rw [View.read_apply]
  show V c main_v37 _ = V c main_v37 _
  congr 1
  funext a
  apply Fin.ext
  match a with
  | ⟨0, _⟩ => show win2_0.index t 0 * 5000 + 1 * (x 0).val = (k 0).val; rw [e0, hk0]; omega
  | ⟨1, _⟩ => show win2_0.index t 1 * 96 + 1 * (x 1).val = (k 1).val; rw [e1, hk1]; omega

/-- The weights' block at every point is the whole matrix. -/
theorem iblk2_1_apply (c : Dev nD) (t : Fin cfg2.N) (x : S96x40.Idx) :
    (iblk2 V c 1 t : Vec Ideal S96x40 .f32) x = (V c main_arg5 : S96x40.Idx → Elt Ideal .f32) x := by
  obtain ⟨-, -, e0, e1, -⟩ := idx_facts2 t
  unfold iblk2
  rw [View.read_apply]
  show V c main_arg5 _ = V c main_arg5 _
  congr 1
  funext a
  apply Fin.ext
  match a with
  | ⟨0, _⟩ => show win2_1.index t 0 * 96 + 1 * (x 0).val = (x 0).val; rw [e0]; omega
  | ⟨1, _⟩ => show win2_1.index t 1 * 40 + 1 * (x 1).val = (x 1).val; rw [e1]; omega

/-- The bias row's block at every point is the whole row. -/
theorem iblk2_2_apply (c : Dev nD) (t : Fin cfg2.N) (x : S1x40.Idx) :
    (iblk2 V c 2 t : Vec Ideal S1x40 .f32) x = (V c main_v38 : S1x40.Idx → Elt Ideal .f32) x := by
  obtain ⟨-, -, -, -, e0, e1, -⟩ := idx_facts2 t
  unfold iblk2
  rw [View.read_apply]
  show V c main_v38 _ = V c main_v38 _
  congr 1
  funext a
  apply Fin.ext
  match a with
  | ⟨0, _⟩ => show win2_2.index t 0 * 1 + 1 * (x 0).val = (x 0).val; rw [e0]; omega
  | ⟨1, _⟩ => show win2_2.index t 1 * 40 + 1 * (x 1).val = (x 1).val; rw [e1]; omega

/-- The output layer as one function of the arrays the call finds. -/
abbrev layer2 (c : Dev nD) : S50000x40.Idx → Elt Ideal .f32 :=
  Spec.logSoftmaxLayer (V c main_v37 : S50000x96.Idx → Elt Ideal .f32) (V c main_arg5 : S96x40.Idx → Elt Ideal .f32)
    (fun o => (V c main_v38 : S1x40.Idx → Elt Ideal .f32) (ix2 0 o))

/-- What point `t` writes back is block `t` of the layer. -/
theorem flushed2_eq (c : Dev nD) (t : Fin cfg2.N) :
    (dat2 V c).flushed 3 t = ((cfg2.win 3).blk t).view.read (Elt Ideal) (layer2 V c) := by
  show (cfg2.win 3).cut (grid2.coords t) ((dat2 V c).after 3 t) = _
  rw [after2_3]
  unfold out2_3
  rw [View.canon_unit_zero hz2]
  simp only [View.ld_unit_zero (S := S5000x96) hz2, View.ld_unit_zero (S := S96x40) hz2, View.ld_unit_zero (S := S1x40) hz2]
  funext j
  have hp : (j 0).val < 5000 := ((win2 3).xinj (grid2.coords t) j 0).isLt
  have hq : (j 1).val < 40 := ((win2 3).xinj (grid2.coords t) j 1).isLt
  have hpq : ((win2 3).xinj (grid2.coords t) j : S5000x40.Idx) = ix2 ⟨(j 0).val, hp⟩ ⟨(j 1).val, hq⟩ :=
    funext fun a => by match a with | ⟨0, _⟩ => rfl | ⟨1, _⟩ => rfl
  obtain ⟨-, -, -, -, -, -, e0, e1⟩ := idx_facts2 t
  have hi0 : ((((cfg2.win 3).blk t).view.emb j) 0).val = 5000 * t.val + (j 0).val := by
    show win2_3.index t 0 * 5000 + 1 * (j 0).val = _; rw [e0]; omega
  have hi1 : ((((cfg2.win 3).blk t).view.emb j) 1).val = (j 1).val := by
    show win2_3.index t 1 * 40 + 1 * (j 1).val = _; rw [e1]; omega
  show k2_pay1 (F := Ideal) (iblk2 V c 0 t) (iblk2 V c 1 t) (iblk2 V c 2 t) ((win2 3).xinj (grid2.coords t) j)
    = layer2 V c (((cfg2.win 3).blk t).view.emb j)
  refine (congrArg (k2_pay1 (F := Ideal) (iblk2 V c 0 t) (iblk2 V c 1 t) (iblk2 V c 2 t)) hpq).trans ?_
  refine (pay2_at (iblk2 V c 0 t) (iblk2 V c 1 t) (iblk2 V c 2 t) ⟨(j 0).val, hp⟩ ⟨(j 1).val, hq⟩).trans ?_
  have haff : Spec.affine (iblk2 V c 0 t : Vec Ideal S5000x96 .f32) (iblk2 V c 1 t : Vec Ideal S96x40 .f32)
        (fun o => (iblk2 V c 2 t : Vec Ideal S1x40 .f32) (ix2 0 o)) ⟨(j 0).val, hp⟩
      = Spec.affine (V c main_v37 : S50000x96.Idx → Elt Ideal .f32) (V c main_arg5 : S96x40.Idx → Elt Ideal .f32)
        (fun o => (V c main_v38 : S1x40.Idx → Elt Ideal .f32) (ix2 0 o)) ((((cfg2.win 3).blk t).view.emb j) 0) := by
    funext k
    unfold Spec.affine
    refine congrArg₂ (· + ·) (Finset.sum_congr rfl fun r _ => congrArg₂ (· * ·) ?_ ?_) ?_
    · exact iblk2_0_apply V c t (ix2 ⟨(j 0).val, hp⟩ r) (ix2 _ r) hi0 rfl
    · exact iblk2_1_apply V c t (ix2 r k)
    · exact iblk2_2_apply V c t (ix2 0 k)
  have hcol : (⟨(j 1).val, hq⟩ : Fin 40) = (((cfg2.win 3).blk t).view.emb j) 1 := Fin.ext hi1.symm
  unfold layer2 Spec.logSoftmaxLayer
  rw [haff, hcol]

/-- An index of the result array is in point `t`'s block iff each coordinate is in the block's range on its axis. -/
theorem mem_blk2 (t : Fin cfg2.N) (i : S50000x40.Idx) :
    i ∈ ((cfg2.win 3).blk t).view.set ↔ ∀ a : Fin 2, win2_3.index t a * S5000x40.size a ≤ (i a).val ∧ (i a).val < win2_3.index t a * S5000x40.size a + S5000x40.size a := by
  show i ∈ ((View.whole main_v39).slice (win2_3.rect t)).set ↔ _
  rw [View.set_slice_whole, Rect.mem_set_unit]
  exact Iff.rfl

/-- The ten blocks of 5000 rows tile the result array, so after the call it holds the layer. -/
theorem arr2 (c : Dev nD) : (dat2 V c).arrAt 3 cfg2.N = layer2 V c :=
  (dat2 V c).arrAt_eq_of_cover 3 (layer2 V c) (fun t _ => flushed2_eq V c t) fun i => by
    have h0 : (i 0).val < 50000 := (i 0).isLt
    have h1 : (i 1).val < 40 := (i 1).isLt
    have hN : grid2.N = 10 := N_2
    refine ⟨⟨(i 0).val / 5000, by rw [show cfg2.N = 10 from N_2]; omega⟩, flush2_3 _, ?_⟩
    rw [mem_blk2]
    obtain ⟨-, -, -, -, -, -, e0, e1⟩ := idx_facts2 ⟨(i 0).val / 5000, by rw [show cfg2.N = 10 from N_2]; omega⟩
    intro a
    match a with
    | ⟨0, _⟩ => show win2_3.index _ 0 * 5000 ≤ (i 0).val ∧ (i 0).val < win2_3.index _ 0 * 5000 + 5000; rw [e0]; show (i 0).val / 5000 * 5000 ≤ (i 0).val ∧ (i 0).val < (i 0).val / 5000 * 5000 + 5000; omega
    | ⟨1, _⟩ => show win2_3.index _ 1 * 40 ≤ (i 1).val ∧ (i 1).val < win2_3.index _ 1 * 40 + 40; rw [e1]; omega

end Cert.KernelIdeal.Hand

end
-- ==== Proof.KAgg.lean ====
/-
  The kernel program's aggregation step as one function of the features and the two index vectors, and what each
  stretch of host operations leaves in the buffers the next pallas_call reads.

  Before each call the host gathers the feature rows at the edges' source nodes (a negative source index first moved up
  by the node count) and adds each gathered row into the row of its edge's target node, starting from zeros; the source
  and target vectors are the two rows of the edge list, taken once before the first call. The bias vector is reshaped
  to one row.
-/
import proofs.«159145_j78408922955888_1_alg».proof.Proof.Gen.KernelIdeal.Launch
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.ShloMosaic.StableHlo

variable {F : FTy → Type} [FloatOps F]

/-- The edges' source nodes: row 0 of the edge list. -/
def srcRaw (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The edges' target nodes: row 1 of the edge list. -/
def dstRaw (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The sum, into each node's row, of the 128-feature rows of the nodes its incoming edges start from. -/
def aggS128 (X : (⟨S50000x128, .f32⟩ : BufTy).Contents (Elt F)) (s d : (⟨S800000, .i32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 d)
    (Host.gather gather_S50000x128_S800000x1_S800000x128_1_0_n_n_0_1_1128 X
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- The same over 96-feature rows. -/
def aggS96 (X : (⟨S50000x96, .f32⟩ : BufTy).Contents (Elt F)) (s d : (⟨S800000, .i32⟩ : BufTy).Contents (Elt F)) : (⟨S50000x96, .f32⟩ : BufTy).Contents (Elt F) :=
  Host.scatterAdd scatter_S50000x96_S800000x1_S800000x96_1_0_0_1
    (broadcastInDim S50000x96 ![] bcast_S_S50000x96 (constant S_ .f32 0x00000000#32))
    (broadcastInDim S800000x1 ![0] bcast_S800000_S800000x1_0 d)
    (Host.gather gather_S50000x96_S800000x1_S800000x96_1_0_n_n_0_1_196 X
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

variable (W : Valuation τ sig (Elt F))

/-! ## The stretch before the first call -/

theorem pre0_v1 : after (hostOps0 (F := F)) W (Proc.devRef .tc main_v1) = srcRaw (W (Proc.devRef .tc main_arg7)) := by
  after_results; rfl

theorem pre0_v3 : after (hostOps0 (F := F)) W (Proc.devRef .tc main_v3) = dstRaw (W (Proc.devRef .tc main_arg7)) := by
  after_results; rfl

theorem pre0_v13 : after (hostOps0 (F := F)) W (Proc.devRef .tc main_v13)
    = aggS128 (W (Proc.devRef .tc main_arg0)) (srcRaw (W (Proc.devRef .tc main_arg7))) (dstRaw (W (Proc.devRef .tc main_arg7))) := by
  after_results; rfl

theorem pre0_v14 : after (hostOps0 (F := F)) W (Proc.devRef .tc main_v14)
    = shapeCast _ (W (Proc.devRef .tc main_arg2)) shapeCasts_S96_S1x96 := by
  after_results; rfl

theorem pre0_keep_arg1 : after (hostOps0 (F := F)) W (Proc.devRef .tc main_arg1) = W (Proc.devRef .tc main_arg1) := by
  after_results

theorem pre0_keep_arg3 : after (hostOps0 (F := F)) W (Proc.devRef .tc main_arg3) = W (Proc.devRef .tc main_arg3) := by
  after_results

theorem pre0_keep_arg4 : after (hostOps0 (F := F)) W (Proc.devRef .tc main_arg4) = W (Proc.devRef .tc main_arg4) := by
  after_results

theorem pre0_keep_arg5 : after (hostOps0 (F := F)) W (Proc.devRef .tc main_arg5) = W (Proc.devRef .tc main_arg5) := by
  after_results

theorem pre0_keep_arg6 : after (hostOps0 (F := F)) W (Proc.devRef .tc main_arg6) = W (Proc.devRef .tc main_arg6) := by
  after_results

/-! ## The stretch before the second call -/

theorem pre1_v25 : after (hostOps1 (F := F)) W (Proc.devRef .tc main_v25)
    = aggS96 (W (Proc.devRef .tc main_v15)) (W (Proc.devRef .tc main_v1)) (W (Proc.devRef .tc main_v3)) := by
  after_results; rfl

theorem pre1_v26 : after (hostOps1 (F := F)) W (Proc.devRef .tc main_v26)
    = shapeCast _ (W (Proc.devRef .tc main_arg4)) shapeCasts_S96_S1x96 := by
  after_results; rfl

theorem pre1_keep_v1 : after (hostOps1 (F := F)) W (Proc.devRef .tc main_v1) = W (Proc.devRef .tc main_v1) := by
  after_results

theorem pre1_keep_v3 : after (hostOps1 (F := F)) W (Proc.devRef .tc main_v3) = W (Proc.devRef .tc main_v3) := by
  after_results

theorem pre1_keep_arg3 : after (hostOps1 (F := F)) W (Proc.devRef .tc main_arg3) = W (Proc.devRef .tc main_arg3) := by
  after_results

theorem pre1_keep_arg5 : after (hostOps1 (F := F)) W (Proc.devRef .tc main_arg5) = W (Proc.devRef .tc main_arg5) := by
  after_results

theorem pre1_keep_arg6 : after (hostOps1 (F := F)) W (Proc.devRef .tc main_arg6) = W (Proc.devRef .tc main_arg6) := by
  after_results

/-! ## The stretch before the last call -/

theorem pre2_v37 : after (hostOps2 (F := F)) W (Proc.devRef .tc main_v37)
    = aggS96 (W (Proc.devRef .tc main_v27)) (W (Proc.devRef .tc main_v1)) (W (Proc.devRef .tc main_v3)) := by
  after_results; rfl

theorem pre2_v38 : after (hostOps2 (F := F)) W (Proc.devRef .tc main_v38)
    = shapeCast _ (W (Proc.devRef .tc main_arg6)) shapeCasts_S40_S1x40 := by
  after_results; rfl

theorem pre2_keep_arg5 : after (hostOps2 (F := F)) W (Proc.devRef .tc main_arg5) = W (Proc.devRef .tc main_arg5) := by
  after_results

end Cert.KernelIdeal.Hand

end
-- ==== Proof.KChain.lean ====
/-
  The kernel program's result array as one function of its arguments.

  Walking @main from the launch: the first host stretch leaves the aggregated input features, the bias as one row and
  the two index vectors; the first call leaves the first layer of them; the second stretch aggregates that, the second
  call applies the second layer; the third stretch aggregates again and the last call applies the output layer. The index
  vectors, the weights and the biases are written by nothing on the way, so each later item finds them as the launch
  (or the first stretch) left them.
-/
import proofs.«159145_j78408922955888_1_alg».proof.Proof.Gen.KernelIdeal.Frame
import proofs.«159145_j78408922955888_1_alg».proof.Proof.KArr0
import proofs.«159145_j78408922955888_1_alg».proof.Proof.KArr1
import proofs.«159145_j78408922955888_1_alg».proof.Proof.KArr2
import proofs.«159145_j78408922955888_1_alg».proof.Proof.KAgg
import proofs.«159145_j78408922955888_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.ShloMosaic.ValueIdx
open Idealize.ShloMosaic.StableHlo Idealize.SL.Sem

/-- A vector reshaped to one row, read at (0, o), is its entry `o`. -/
theorem rowOf_at {N : ℕ} {α : Type} (b : (⟨1, ![N]⟩ : Shape).Idx → α) (h : (⟨1, ![N]⟩ : Shape).ShapeCasts ⟨2, ![1, N]⟩) (o : Fin N) :
    shapeCast ⟨2, ![1, N]⟩ b h (ix2 0 o) = b (ix1 o) := by
  refine (shapeCast_addUnit_apply ![N] b h (ix2 0 o)).trans (congrArg b ?_)
  funext a
  match a with
  | ⟨0, _⟩ => rfl

variable (m : (ℓ : Loc nD τ sig) → Buf (Elt Ideal) ℓ) (ρ : Dev nD → PrngReg) (c : Dev nD)

/-- The argument arrays as launched. -/
abbrev X0 : (⟨S50000x128, .f32⟩ : BufTy).Contents (Elt Ideal) := m ((c.tc : Thread nD τ).loc main_arg0)
abbrev X1 : (⟨S128x96, .f32⟩ : BufTy).Contents (Elt Ideal) := m ((c.tc : Thread nD τ).loc main_arg1)
abbrev X2 : (⟨S96, .f32⟩ : BufTy).Contents (Elt Ideal) := m ((c.tc : Thread nD τ).loc main_arg2)
abbrev X3 : (⟨S96x96, .f32⟩ : BufTy).Contents (Elt Ideal) := m ((c.tc : Thread nD τ).loc main_arg3)
abbrev X4 : (⟨S96, .f32⟩ : BufTy).Contents (Elt Ideal) := m ((c.tc : Thread nD τ).loc main_arg4)
abbrev X5 : (⟨S96x40, .f32⟩ : BufTy).Contents (Elt Ideal) := m ((c.tc : Thread nD τ).loc main_arg5)
abbrev X6 : (⟨S40, .f32⟩ : BufTy).Contents (Elt Ideal) := m ((c.tc : Thread nD τ).loc main_arg6)
abbrev X7 : (⟨S2x800000, .i32⟩ : BufTy).Contents (Elt Ideal) := m ((c.tc : Thread nD τ).loc main_arg7)

/-! ## At the first call's entry -/

theorem w1_v13 : W1 m ρ c (Proc.devRef .tc main_v13) = aggS128 (X0 m c) (srcRaw (X7 m c)) (dstRaw (X7 m c)) := pre0_v13 (W0 m ρ c)
theorem w1_v14 : W1 m ρ c (Proc.devRef .tc main_v14) = shapeCast _ (X2 m c) shapeCasts_S96_S1x96 := pre0_v14 (W0 m ρ c)
theorem w1_v1 : W1 m ρ c (Proc.devRef .tc main_v1) = srcRaw (X7 m c) := pre0_v1 (W0 m ρ c)
theorem w1_v3 : W1 m ρ c (Proc.devRef .tc main_v3) = dstRaw (X7 m c) := pre0_v3 (W0 m ρ c)
theorem w1_arg1 : W1 m ρ c (Proc.devRef .tc main_arg1) = X1 m c := pre0_keep_arg1 (W0 m ρ c)
theorem w1_arg3 : W1 m ρ c (Proc.devRef .tc main_arg3) = X3 m c := pre0_keep_arg3 (W0 m ρ c)
theorem w1_arg4 : W1 m ρ c (Proc.devRef .tc main_arg4) = X4 m c := pre0_keep_arg4 (W0 m ρ c)
theorem w1_arg5 : W1 m ρ c (Proc.devRef .tc main_arg5) = X5 m c := pre0_keep_arg5 (W0 m ρ c)
theorem w1_arg6 : W1 m ρ c (Proc.devRef .tc main_arg6) = X6 m c := pre0_keep_arg6 (W0 m ρ c)

/-- The first layer of the aggregated input. -/
abbrev H1 : (⟨S50000x96, .f32⟩ : BufTy).Contents (Elt Ideal) :=
  Spec.reluLayer (aggS128 (X0 m c) (srcRaw (X7 m c)) (dstRaw (X7 m c)) : S50000x128.Idx → Ideal .f32) (X1 m c : S128x96.Idx → Ideal .f32)
    (fun o => (X2 m c : S96.Idx → Ideal .f32) (ix1 o))

/-! ## At the first call's exit -/

theorem w2_v15 : W2 m ρ c (Proc.devRef .tc main_v15) = H1 m c := by
  refine (W2_arr m ρ c 3).trans ((arr0 (V1 m ρ) c).trans ?_)
  show Spec.reluLayer (W1 m ρ c (Proc.devRef .tc main_v13)) (W1 m ρ c (Proc.devRef .tc main_arg1))
      (fun o => W1 m ρ c (Proc.devRef .tc main_v14) (ix2 0 o)) = _
  rw [w1_v13, w1_arg1, w1_v14]
  exact congrArg _ (funext fun o => rowOf_at _ _ o)

/-- The index vectors, the later weights and the later biases pass the first call untouched. -/
theorem w2_v1 : W2 m ρ c (Proc.devRef .tc main_v1) = srcRaw (X7 m c) := (W2_of_ne m ρ c main_v1 (by decide)).trans (w1_v1 m ρ c)
theorem w2_v3 : W2 m ρ c (Proc.devRef .tc main_v3) = dstRaw (X7 m c) := (W2_of_ne m ρ c main_v3 (by decide)).trans (w1_v3 m ρ c)
theorem w2_arg3 : W2 m ρ c (Proc.devRef .tc main_arg3) = X3 m c := (W2_of_ne m ρ c main_arg3 (by decide)).trans (w1_arg3 m ρ c)
theorem w2_arg4 : W2 m ρ c (Proc.devRef .tc main_arg4) = X4 m c := (W2_of_ne m ρ c main_arg4 (by decide)).trans (w1_arg4 m ρ c)
theorem w2_arg5 : W2 m ρ c (Proc.devRef .tc main_arg5) = X5 m c := (W2_of_ne m ρ c main_arg5 (by decide)).trans (w1_arg5 m ρ c)
theorem w2_arg6 : W2 m ρ c (Proc.devRef .tc main_arg6) = X6 m c := (W2_of_ne m ρ c main_arg6 (by decide)).trans (w1_arg6 m ρ c)

/-! ## At the second call's entry -/

theorem w3_v25 : W3 m ρ c (Proc.devRef .tc main_v25) = aggS96 (H1 m c) (srcRaw (X7 m c)) (dstRaw (X7 m c)) := by
  refine (pre1_v25 (W2 m ρ c)).trans ?_
  rw [w2_v15, w2_v1, w2_v3]
theorem w3_v26 : W3 m ρ c (Proc.devRef .tc main_v26) = shapeCast _ (X4 m c) shapeCasts_S96_S1x96 := by
  refine (pre1_v26 (W2 m ρ c)).trans ?_
  rw [w2_arg4]
theorem w3_v1 : W3 m ρ c (Proc.devRef .tc main_v1) = srcRaw (X7 m c) := (pre1_keep_v1 (W2 m ρ c)).trans (w2_v1 m ρ c)
theorem w3_v3 : W3 m ρ c (Proc.devRef .tc main_v3) = dstRaw (X7 m c) := (pre1_keep_v3 (W2 m ρ c)).trans (w2_v3 m ρ c)
theorem w3_arg3 : W3 m ρ c (Proc.devRef .tc main_arg3) = X3 m c := (pre1_keep_arg3 (W2 m ρ c)).trans (w2_arg3 m ρ c)
theorem w3_arg5 : W3 m ρ c (Proc.devRef .tc main_arg5) = X5 m c := (pre1_keep_arg5 (W2 m ρ c)).trans (w2_arg5 m ρ c)
theorem w3_arg6 : W3 m ρ c (Proc.devRef .tc main_arg6) = X6 m c := (pre1_keep_arg6 (W2 m ρ c)).trans (w2_arg6 m ρ c)

/-- The second layer of the aggregated first layer. -/
abbrev H2 : (⟨S50000x96, .f32⟩ : BufTy).Contents (Elt Ideal) :=
  Spec.reluLayer (aggS96 (H1 m c) (srcRaw (X7 m c)) (dstRaw (X7 m c)) : S50000x96.Idx → Ideal .f32) (X3 m c : S96x96.Idx → Ideal .f32)
    (fun o => (X4 m c : S96.Idx → Ideal .f32) (ix1 o))

/-! ## At the second call's exit -/

theorem w4_v27 : W4 m ρ c (Proc.devRef .tc main_v27) = H2 m c := by
  refine (W4_arr m ρ c 3).trans ((arr1 (V3 m ρ) c).trans ?_)
  show Spec.reluLayer (W3 m ρ c (Proc.devRef .tc main_v25)) (W3 m ρ c (Proc.devRef .tc main_arg3))
      (fun o => W3 m ρ c (Proc.devRef .tc main_v26) (ix2 0 o)) = _
  rw [w3_v25, w3_arg3, w3_v26]
  exact congrArg _ (funext fun o => rowOf_at _ _ o)
theorem w4_v1 : W4 m ρ c (Proc.devRef .tc main_v1) = srcRaw (X7 m c) := (W4_of_ne m ρ c main_v1 (by decide)).trans (w3_v1 m ρ c)
theorem w4_v3 : W4 m ρ c (Proc.devRef .tc main_v3) = dstRaw (X7 m c) := (W4_of_ne m ρ c main_v3 (by decide)).trans (w3_v3 m ρ c)
theorem w4_arg5 : W4 m ρ c (Proc.devRef .tc main_arg5) = X5 m c := (W4_of_ne m ρ c main_arg5 (by decide)).trans (w3_arg5 m ρ c)
theorem w4_arg6 : W4 m ρ c (Proc.devRef .tc main_arg6) = X6 m c := (W4_of_ne m ρ c main_arg6 (by decide)).trans (w3_arg6 m ρ c)

/-! ## At the last call's entry -/

theorem w5_v37 : W5 m ρ c (Proc.devRef .tc main_v37) = aggS96 (H2 m c) (srcRaw (X7 m c)) (dstRaw (X7 m c)) := by
  refine (pre2_v37 (W4 m ρ c)).trans ?_
  rw [w4_v27, w4_v1, w4_v3]
theorem w5_v38 : W5 m ρ c (Proc.devRef .tc main_v38) = shapeCast _ (X6 m c) shapeCasts_S40_S1x40 := by
  refine (pre2_v38 (W4 m ρ c)).trans ?_
  rw [w4_arg6]
theorem w5_arg5 : W5 m ρ c (Proc.devRef .tc main_arg5) = X5 m c := (pre2_keep_arg5 (W4 m ρ c)).trans (w4_arg5 m ρ c)

/-- The network's output: the output layer of the aggregated second layer. -/
abbrev Out : (⟨S50000x40, .f32⟩ : BufTy).Contents (Elt Ideal) :=
  Spec.logSoftmaxLayer (aggS96 (H2 m c) (srcRaw (X7 m c)) (dstRaw (X7 m c)) : S50000x96.Idx → Ideal .f32) (X5 m c : S96x40.Idx → Ideal .f32)
    (fun o => (X6 m c : S40.Idx → Ideal .f32) (ix1 o))

/-! ## At the return -/

theorem w6_v39 : W6 m ρ c (Proc.devRef .tc main_v39) = Out m c := by
  refine (W6_arr m ρ c 3).trans ((arr2 (V5 m ρ) c).trans ?_)
  show Spec.logSoftmaxLayer (W5 m ρ c (Proc.devRef .tc main_v37)) (W5 m ρ c (Proc.devRef .tc main_arg5))
      (fun o => W5 m ρ c (Proc.devRef .tc main_v38) (ix2 0 o)) = _
  rw [w5_v37, w5_arg5, w5_v38]
  exact congrArg _ (funext fun o => rowOf_at _ _ o)

end Cert.KernelIdeal.Hand

end
-- ==== Proof.KRun.lean ====
/-
  The kernel program's run with its result read: every weakly fair execution terminates, nothing faulting, with the
  result array at the network's output of the argument arrays and the arguments as launched.
-/
import proofs.«159145_j78408922955888_1_alg».proof.Proof.KRunNamed
import proofs.«159145_j78408922955888_1_alg».proof.Proof.KChain

noncomputable section

namespace Cert.KernelIdeal.Hand

open Cert.KernelIdeal Cert.KernelIdeal.Gen Idealize.ShloMosaic Idealize.ShloMosaic.TcCoe Idealize.SL.Sem

/-- The launch's run ends with the result array at the last boundary's contents, which the walk through @main reads as
    the output layer of the twice-aggregated hidden layers. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v39) = Out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (w6_v39 m ρ c), (h c).2⟩) (Cert.KernelIdeal.Named.run_named m ρ)

end Cert.KernelIdeal.Hand

end
-- ==== Proof.RefAgg.lean ====
/-
  The reference's aggregation step as one function of the features and the edge list, and the three places it occurs.

  Every layer of the reference gathers the feature rows at the edges' source nodes (a negative source index first moved up
  by the node count) and adds each gathered row into the row of its edge's target node, starting from zeros. The three
  occurrences differ only in which features go in; written over the generated stage definitions they are one term.
-/
import proofs.«159145_j78408922955888_1_alg».proof.Proof.RefReadP

noncomputable section

namespace Cert.ReferenceIdeal.Hand

open Cert.ReferenceIdeal Cert.ReferenceIdeal.ReadP Idealize.ShloMosaic

variable {F : FTy → Type} [FloatOps F]

/-- The sum, into each node's row, of the 128-feature rows of the nodes its incoming edges start from. -/
def agg128 (X : (⟨S50000x128, .f32⟩ : BufTy).Contents (Elt F)) (e : (⟨S2x800000, .i32⟩ : BufTy).Contents (Elt F)) : (⟨S50000x128, .f32⟩ : BufTy).Contents (Elt F) :=
  Host.scatterAdd scatter_S50000x128_S800000x1_S800000x128_1_0_0_1 (val_main_v11 (F := F)) (val_main_v12 (F := F) e)
    (Host.gather gather_S50000x128_S800000x1_S800000x128_1_0_n_n_0_1_1128 X (val_main_v9 (F := F) e))

/-- The same over 96-feature rows. -/
def agg96 (X : (⟨S50000x96, .f32⟩ : BufTy).Contents (Elt F)) (e : (⟨S2x800000, .i32⟩ : BufTy).Contents (Elt F)) : (⟨S50000x96, .f32⟩ : BufTy).Contents (Elt F) :=
  Host.scatterAdd scatter_S50000x96_S800000x1_S800000x96_1_0_0_1 (val_main_v26 (F := F)) (val_main_v12 (F := F) e)
    (Host.gather gather_S50000x96_S800000x1_S800000x96_1_0_n_n_0_1_196 X (val_main_v9 (F := F) e))

/-- The first layer aggregates the input features. -/
theorem v13_eq (x0 : (⟨S50000x128, .f32⟩ : BufTy).Contents (Elt F)) (x7 : (⟨S2x800000, .i32⟩ : BufTy).Contents (Elt F)) :
    val_main_v13 (F := F) x0 x7 = agg128 x0 x7 := rfl

/-- The second layer aggregates the first layer's output. -/
theorem v28_eq (x0 : (⟨S50000x128, .f32⟩ : BufTy).Contents (Elt F)) (x1 : (⟨S128x96, .f32⟩ : BufTy).Contents (Elt F)) (x2 : (⟨S96, .f32⟩ : BufTy).Contents (Elt F)) (x7 : (⟨S2x800000, .i32⟩ : BufTy).Contents (Elt F)) :
    val_main_v28 (F := F) x0 x1 x2 x7 = agg96 (val_main_v18 (F := F) x0 x1 x2 x7) x7 := rfl

/-- The third layer aggregates the second layer's output. -/
theorem v43_eq (x0 : (⟨S50000x128, .f32⟩ : BufTy).Contents (Elt F)) (x1 : (⟨S128x96, .f32⟩ : BufTy).Contents (Elt F)) (x2 : (⟨S96, .f32⟩ : BufTy).Contents (Elt F)) (x3 : (⟨S96x96, .f32⟩ : BufTy).Contents (Elt F)) (x4 : (⟨S96, .f32⟩ : BufTy).Contents (Elt F)) (x7 : (⟨S2x800000, .i32⟩ : BufTy).Contents (Elt F)) :
    val_main_v43 (F := F) x0 x1 x2 x3 x4 x7 = agg96 (val_main_v33 (F := F) x0 x1 x2 x3 x4 x7) x7 := rfl

end Cert.ReferenceIdeal.Hand

end
-- ==== Proof.RefSpec.lean ====
/-
  Each layer of the reference is the specification's layer of its aggregated input, at the ideal values.

  Read index by index: the host's matrix product is the sum over the contracted axis, the bias vector is broadcast
  down the rows, `relu` is the maximum with zero; in the last layer the row maximum is the host's reduce with a maximum
  body from −∞ (the further maximum with −∞ that follows it changes nothing), and the sum of exponentials is the host's
  reduce with an add body from zero.
-/
import proofs.«159145_j78408922955888_1_alg».proof.Proof.RefReadP
import proofs.«159145_j78408922955888_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.Hand

open Cert.ReferenceIdeal Cert.ReferenceIdeal.ReadP Idealize.ShloMosaic Idealize.ShloMosaic.ValueIdx

/-- The first layer. -/
theorem v18_spec (x0 : (⟨S50000x128, .f32⟩ : BufTy).Contents (Elt Ideal)) (x1 : (⟨S128x96, .f32⟩ : BufTy).Contents (Elt Ideal)) (x2 : (⟨S96, .f32⟩ : BufTy).Contents (Elt Ideal)) (x7 : (⟨S2x800000, .i32⟩ : BufTy).Contents (Elt Ideal)) :
    val_main_v18 (F := Ideal) x0 x1 x2 x7
      = Spec.reluLayer (val_main_v13 (F := Ideal) x0 x7 : S50000x128.Idx → Ideal .f32) (x1 : S128x96.Idx → Ideal .f32)
          (fun o => (x2 : S96.Idx → Ideal .f32) (ix1 o)) := by
  funext i
  obtain ⟨n, o, rfl⟩ : ∃ (n : Fin 50000) (o : Fin 96), i = ix2 n o := ⟨i 0, i 1, eq_ix2 i⟩
  have el : ∀ k : Fin 128, lidx_main_v14 (ix2 n o) k = ix2 n k := fun k =>
    funext fun a => Fin.ext (by match a with | ⟨0, _⟩ => rfl | ⟨1, _⟩ => rfl)
  have er : ∀ k : Fin 128, ridx_main_v14 (ix2 n o) k = ix2 k o := fun k =>
    funext fun a => Fin.ext (by match a with | ⟨0, _⟩ => rfl | ⟨1, _⟩ => rfl)
  have eb : idx_main_v15 (idx_main_v16 (ix2 n o)) = ix1 o :=
    funext fun a => Fin.ext (by match a with | ⟨0, _⟩ => rfl)
  rw [val_main_v18_apply, val_main_v17_apply, val_main_v14_apply, val_main_v16_apply, val_main_v15_apply,
    val_main_call0_v0_apply, val_main_call0_cst_apply]
  simp only [el, er, eb, Ideal.maximumf_def, Ideal.addf_def, Ideal.ofBits_def]
  unfold Spec.reluLayer Spec.affine
  rfl

/-- The second layer. -/
theorem v33_spec (x0 : (⟨S50000x128, .f32⟩ : BufTy).Contents (Elt Ideal)) (x1 : (⟨S128x96, .f32⟩ : BufTy).Contents (Elt Ideal)) (x2 : (⟨S96, .f32⟩ : BufTy).Contents (Elt Ideal)) (x3 : (⟨S96x96, .f32⟩ : BufTy).Contents (Elt Ideal)) (x4 : (⟨S96, .f32⟩ : BufTy).Contents (Elt Ideal)) (x7 : (⟨S2x800000, .i32⟩ : BufTy).Contents (Elt Ideal)) :
    val_main_v33 (F := Ideal) x0 x1 x2 x3 x4 x7
      = Spec.reluLayer (val_main_v28 (F := Ideal) x0 x1 x2 x7 : S50000x96.Idx → Ideal .f32) (x3 : S96x96.Idx → Ideal .f32)
          (fun o => (x4 : S96.Idx → Ideal .f32) (ix1 o)) := by
  funext i
  obtain ⟨n, o, rfl⟩ : ∃ (n : Fin 50000) (o : Fin 96), i = ix2 n o := ⟨i 0, i 1, eq_ix2 i⟩
  have el : ∀ k : Fin 96, lidx_main_v29 (ix2 n o) k = ix2 n k := fun k =>
    funext fun a => Fin.ext (by match a with | ⟨0, _⟩ => rfl | ⟨1, _⟩ => rfl)
  have er : ∀ k : Fin 96, ridx_main_v29 (ix2 n o) k = ix2 k o := fun k =>
    funext fun a => Fin.ext (by match a with | ⟨0, _⟩ => rfl | ⟨1, _⟩ => rfl)
  have eb : idx_main_v30 (idx_main_v31 (ix2 n o)) = ix1 o :=
    funext fun a => Fin.ext (by match a with | ⟨0, _⟩ => rfl)
  rw [val_main_v33_apply, val_main_v32_apply, val_main_v29_apply, val_main_v31_apply, val_main_v30_apply,
    val_main_call1_v0_apply, val_main_call1_cst_apply]
  simp only [el, er, eb, Ideal.maximumf_def, Ideal.addf_def, Ideal.ofBits_def]
  unfold Spec.reluLayer Spec.affine
  rfl

/-! ## The output layer, piece by piece

Row `n`, column `o` throughout; `y(n, ·)` is row `n` of the output layer's affine map. -/

/-- The output layer's affine map: the matrix product is the sum over the contracted axis and the bias is broadcast
    down the rows. -/
theorem outputAffine_eq (x0 : (⟨S50000x128, .f32⟩ : BufTy).Contents (Elt Ideal)) (x1 : (⟨S128x96, .f32⟩ : BufTy).Contents (Elt Ideal)) (x2 : (⟨S96, .f32⟩ : BufTy).Contents (Elt Ideal)) (x3 : (⟨S96x96, .f32⟩ : BufTy).Contents (Elt Ideal)) (x4 : (⟨S96, .f32⟩ : BufTy).Contents (Elt Ideal)) (x5 : (⟨S96x40, .f32⟩ : BufTy).Contents (Elt Ideal)) (x6 : (⟨S40, .f32⟩ : BufTy).Contents (Elt Ideal)) (x7 : (⟨S2x800000, .i32⟩ : BufTy).Contents (Elt Ideal)) (n : Fin 50000) (o : Fin 40) :
    val_main_v47 (F := Ideal) x0 x1 x2 x3 x4 x5 x6 x7 (ix2 n o)
      = Spec.affine (val_main_v43 (F := Ideal) x0 x1 x2 x3 x4 x7 : S50000x96.Idx → Ideal .f32) (x5 : S96x40.Idx → Ideal .f32)
          (fun o => (x6 : S40.Idx → Ideal .f32) (ix1 o)) n o := by
  have el : ∀ k : Fin 96, lidx_main_v44 (ix2 n o) k = ix2 n k := fun k =>
    funext fun a => Fin.ext (by match a with | ⟨0, _⟩ => rfl | ⟨1, _⟩ => rfl)
  have er : ∀ k : Fin 96, ridx_main_v44 (ix2 n o) k = ix2 k o := fun k =>
    funext fun a => Fin.ext (by match a with | ⟨0, _⟩ => rfl | ⟨1, _⟩ => rfl)
  have eb : idx_main_v45 (idx_main_v46 (ix2 n o)) = ix1 o :=
    funext fun a => Fin.ext (by match a with | ⟨0, _⟩ => rfl)
  rw [val_main_v47_apply, val_main_v44_apply, val_main_v46_apply, val_main_v45_apply]
  simp only [el, er, eb, Ideal.addf_def]
  unfold Spec.affine
  rfl

/-- Dropping the column axis of a 50000 × 40 array leaves its 50000 rows. -/
theorem dropColumns_rows : S50000x40.Reduces [1] S50000 := by decide

/-- Row `n` with column `k` put back is (n, k). -/
theorem row_with_column (h : S50000x40.Reduces [1] S50000) (n : Fin 50000) (k : Fin (S50000x40.size 1)) :
    h.lift (ix1 n) k = ix2 n (⟨k.val, k.isLt⟩ : Fin 40) := by
  funext c; apply Fin.ext
  fin_cases c <;> rfl

/-- The maximum with −∞ changes nothing. -/
theorem max_negInf_left (y : Ideal .f32) : max (Ideal.ofBits .f32 0xFF800000#32) y = y := by
  simp [Ideal.ofBits, Ideal.ieee]

/-- From −∞ the host's reduce with a maximum body along the rows of a 50000 × 40 array is, at row `n`, the fold of
    `max` over the row's entries. Stated over an arbitrary array. -/
theorem hostReduceMax_row (y : S50000x40.Idx → Ideal .f32) (n : Fin 50000) :
    Host.reduce FloatOps.maximumf y (constant (F := Ideal) S_ .f32 0xFF800000#32) Gen.reducesTo_S50000x40_S50000_d1 Gen.h_S_ (ix1 n)
      = Spec.rowMax (fun k : Fin 40 => y (ix2 n k)) := by
  rw [Host.reduce_eq_fold_single FloatOps.maximumf y _ Gen.reducesTo_S50000x40_S50000_d1 dropColumns_rows Gen.h_S_]
  have hf : (y ∘ dropColumns_rows.lift (ix1 n)) = fun k : Fin 40 => y (ix2 n k) :=
    funext fun k => congrArg y (row_with_column dropColumns_rows n k)
  unfold Spec.rowMax
  exact congrArg (fun f => Finset.fold max (Ideal.ofBits .f32 0xFF800000#32) f (Finset.univ : Finset (Fin 40))) hf

/-- The reference's reduce with a maximum body is the row maximum of the affine map. -/
theorem reduceMax_eq_rowMax (x0 : (⟨S50000x128, .f32⟩ : BufTy).Contents (Elt Ideal)) (x1 : (⟨S128x96, .f32⟩ : BufTy).Contents (Elt Ideal)) (x2 : (⟨S96, .f32⟩ : BufTy).Contents (Elt Ideal)) (x3 : (⟨S96x96, .f32⟩ : BufTy).Contents (Elt Ideal)) (x4 : (⟨S96, .f32⟩ : BufTy).Contents (Elt Ideal)) (x5 : (⟨S96x40, .f32⟩ : BufTy).Contents (Elt Ideal)) (x6 : (⟨S40, .f32⟩ : BufTy).Contents (Elt Ideal)) (x7 : (⟨S2x800000, .i32⟩ : BufTy).Contents (Elt Ideal)) (n : Fin 50000) :
    val_main_call2_v0 (F := Ideal) x0 x1 x2 x3 x4 x5 x6 x7 (ix1 n)
      = Spec.rowMax (Spec.affine (val_main_v43 (F := Ideal) x0 x1 x2 x3 x4 x7 : S50000x96.Idx → Ideal .f32) (x5 : S96x40.Idx → Ideal .f32)
          (fun o => (x6 : S40.Idx → Ideal .f32) (ix1 o)) n) := by
  unfold val_main_call2_v0 val_main_call2_cst
  rw [hostReduceMax_row]
  exact congrArg Spec.rowMax (funext fun k => outputAffine_eq x0 x1 x2 x3 x4 x5 x6 x7 n k)

/-- The further maximum with −∞ that follows the reduce changes nothing. -/
theorem maxNegInf_reduceMax_eq_rowMax (x0 : (⟨S50000x128, .f32⟩ : BufTy).Contents (Elt Ideal)) (x1 : (⟨S128x96, .f32⟩ : BufTy).Contents (Elt Ideal)) (x2 : (⟨S96, .f32⟩ : BufTy).Contents (Elt Ideal)) (x3 : (⟨S96x96, .f32⟩ : BufTy).Contents (Elt Ideal)) (x4 : (⟨S96, .f32⟩ : BufTy).Contents (Elt Ideal)) (x5 : (⟨S96x40, .f32⟩ : BufTy).Contents (Elt Ideal)) (x6 : (⟨S40, .f32⟩ : BufTy).Contents (Elt Ideal)) (x7 : (⟨S2x800000, .i32⟩ : BufTy).Contents (Elt Ideal)) (n : Fin 50000) :
    val_main_call2_v2 (F := Ideal) x0 x1 x2 x3 x4 x5 x6 x7 (ix1 n)
      = Spec.rowMax (Spec.affine (val_main_v43 (F := Ideal) x0 x1 x2 x3 x4 x7 : S50000x96.Idx → Ideal .f32) (x5 : S96x40.Idx → Ideal .f32)
          (fun o => (x6 : S40.Idx → Ideal .f32) (ix1 o)) n) := by
  rw [val_main_call2_v2_apply, val_main_call2_v1_apply, val_main_call2_cst_0_apply, reduceMax_eq_rowMax]
  simp only [Ideal.maximumf_def, Ideal.ofBits_def]
  exact max_negInf_left _

/-- Each entry of the affine map less its row's maximum. -/
theorem shifted_eq (x0 : (⟨S50000x128, .f32⟩ : BufTy).Contents (Elt Ideal)) (x1 : (⟨S128x96, .f32⟩ : BufTy).Contents (Elt Ideal)) (x2 : (⟨S96, .f32⟩ : BufTy).Contents (Elt Ideal)) (x3 : (⟨S96x96, .f32⟩ : BufTy).Contents (Elt Ideal)) (x4 : (⟨S96, .f32⟩ : BufTy).Contents (Elt Ideal)) (x5 : (⟨S96x40, .f32⟩ : BufTy).Contents (Elt Ideal)) (x6 : (⟨S40, .f32⟩ : BufTy).Contents (Elt Ideal)) (x7 : (⟨S2x800000, .i32⟩ : BufTy).Contents (Elt Ideal)) (n : Fin 50000) (o : Fin 40) :
    val_main_call2_v5 (F := Ideal) x0 x1 x2 x3 x4 x5 x6 x7 (ix2 n o)
      = Spec.affine (val_main_v43 (F := Ideal) x0 x1 x2 x3 x4 x7 : S50000x96.Idx → Ideal .f32) (x5 : S96x40.Idx → Ideal .f32)
          (fun o => (x6 : S40.Idx → Ideal .f32) (ix1 o)) n o - Spec.rowMax (Spec.affine (val_main_v43 (F := Ideal) x0 x1 x2 x3 x4 x7 : S50000x96.Idx → Ideal .f32) (x5 : S96x40.Idx → Ideal .f32)
          (fun o => (x6 : S40.Idx → Ideal .f32) (ix1 o)) n) := by
  have e : idx_main_call2_v3 (idx_main_call2_v4 (ix2 n o)) = ix1 n :=
    funext fun a => Fin.ext (by match a with | ⟨0, _⟩ => rfl)
  rw [val_main_call2_v5_apply, val_main_call2_v4_apply, val_main_call2_v3_apply, e, maxNegInf_reduceMax_eq_rowMax, outputAffine_eq]
  simp only [Ideal.subf_def]

/-- The exponential of a shifted entry. -/
theorem expShifted_eq (x0 : (⟨S50000x128, .f32⟩ : BufTy).Contents (Elt Ideal)) (x1 : (⟨S128x96, .f32⟩ : BufTy).Contents (Elt Ideal)) (x2 : (⟨S96, .f32⟩ : BufTy).Contents (Elt Ideal)) (x3 : (⟨S96x96, .f32⟩ : BufTy).Contents (Elt Ideal)) (x4 : (⟨S96, .f32⟩ : BufTy).Contents (Elt Ideal)) (x5 : (⟨S96x40, .f32⟩ : BufTy).Contents (Elt Ideal)) (x6 : (⟨S40, .f32⟩ : BufTy).Contents (Elt Ideal)) (x7 : (⟨S2x800000, .i32⟩ : BufTy).Contents (Elt Ideal)) (n : Fin 50000) (k : Fin 40) :
    val_main_call2_v6 (F := Ideal) x0 x1 x2 x3 x4 x5 x6 x7 (ix2 n k)
      = Ideal.exp (Spec.affine (val_main_v43 (F := Ideal) x0 x1 x2 x3 x4 x7 : S50000x96.Idx → Ideal .f32) (x5 : S96x40.Idx → Ideal .f32)
          (fun o => (x6 : S40.Idx → Ideal .f32) (ix1 o)) n k - Spec.rowMax (Spec.affine (val_main_v43 (F := Ideal) x0 x1 x2 x3 x4 x7 : S50000x96.Idx → Ideal .f32) (x5 : S96x40.Idx → Ideal .f32)
          (fun o => (x6 : S40.Idx → Ideal .f32) (ix1 o)) n)) := by
  rw [val_main_call2_v6_apply, shifted_eq]
  simp only [Ideal.hostUnary_exp_def]

/-- From zero the host's reduce with an add body along a row is the row's sum of the exponentials of the shifted entries. -/
theorem sumExpShifted_eq (x0 : (⟨S50000x128, .f32⟩ : BufTy).Contents (Elt Ideal)) (x1 : (⟨S128x96, .f32⟩ : BufTy).Contents (Elt Ideal)) (x2 : (⟨S96, .f32⟩ : BufTy).Contents (Elt Ideal)) (x3 : (⟨S96x96, .f32⟩ : BufTy).Contents (Elt Ideal)) (x4 : (⟨S96, .f32⟩ : BufTy).Contents (Elt Ideal)) (x5 : (⟨S96x40, .f32⟩ : BufTy).Contents (Elt Ideal)) (x6 : (⟨S40, .f32⟩ : BufTy).Contents (Elt Ideal)) (x7 : (⟨S2x800000, .i32⟩ : BufTy).Contents (Elt Ideal)) (n : Fin 50000) :
    val_main_call2_v7 (F := Ideal) x0 x1 x2 x3 x4 x5 x6 x7 (ix1 n)
      = ∑ k : Fin 40, Ideal.exp (Spec.affine (val_main_v43 (F := Ideal) x0 x1 x2 x3 x4 x7 : S50000x96.Idx → Ideal .f32) (x5 : S96x40.Idx → Ideal .f32)
          (fun o => (x6 : S40.Idx → Ideal .f32) (ix1 o)) n k - Spec.rowMax (Spec.affine (val_main_v43 (F := Ideal) x0 x1 x2 x3 x4 x7 : S50000x96.Idx → Ideal .f32) (x5 : S96x40.Idx → Ideal .f32)
          (fun o => (x6 : S40.Idx → Ideal .f32) (ix1 o)) n)) := by
  have e : ∀ k : Fin 40, idx_main_call2_v7 (ix1 n) k = ix2 n k := fun k =>
    funext fun a => Fin.ext (by match a with | ⟨0, _⟩ => rfl | ⟨1, _⟩ => rfl)
  rw [val_main_call2_v7_apply, val_main_call2_cst_1_apply]
  simp only [e, expShifted_eq, Ideal.ofBits_def, Ideal.ofBits_zero_f32, zero_add]

/-- The specification's output layer at row `n`, column `o`. -/
theorem logSoftmaxLayer_at {M K N : ℕ} (A : FVec Ideal ⟨2, ![M, K]⟩ .f32) (W : FVec Ideal ⟨2, ![K, N]⟩ .f32) (β : Fin N → Ideal .f32)
    (n : Fin M) (o : Fin N) :
    Spec.logSoftmaxLayer A W β (ix2 n o)
      = (Spec.affine A W β n o - Spec.rowMax (Spec.affine A W β n))
        - Ideal.log (∑ k : Fin N, Ideal.exp (Spec.affine A W β n k - Spec.rowMax (Spec.affine A W β n))) := rfl

/-- The output layer. -/
theorem v48_spec (x0 : (⟨S50000x128, .f32⟩ : BufTy).Contents (Elt Ideal)) (x1 : (⟨S128x96, .f32⟩ : BufTy).Contents (Elt Ideal)) (x2 : (⟨S96, .f32⟩ : BufTy).Contents (Elt Ideal)) (x3 : (⟨S96x96, .f32⟩ : BufTy).Contents (Elt Ideal)) (x4 : (⟨S96, .f32⟩ : BufTy).Contents (Elt Ideal)) (x5 : (⟨S96x40, .f32⟩ : BufTy).Contents (Elt Ideal)) (x6 : (⟨S40, .f32⟩ : BufTy).Contents (Elt Ideal)) (x7 : (⟨S2x800000, .i32⟩ : BufTy).Contents (Elt Ideal)) :
    val_main_v48 (F := Ideal) x0 x1 x2 x3 x4 x5 x6 x7
      = Spec.logSoftmaxLayer (val_main_v43 (F := Ideal) x0 x1 x2 x3 x4 x7 : S50000x96.Idx → Ideal .f32) (x5 : S96x40.Idx → Ideal .f32)
          (fun o => (x6 : S40.Idx → Ideal .f32) (ix1 o)) := by
  funext i
  obtain ⟨n, o, rfl⟩ : ∃ (n : Fin 50000) (o : Fin 40), i = ix2 n o := ⟨i 0, i 1, eq_ix2 i⟩
  have e : idx_main_call2_v8 (idx_main_call2_v10 (ix2 n o)) = ix1 n :=
    funext fun a => Fin.ext (by match a with | ⟨0, _⟩ => rfl)
  rw [val_main_v48_apply, val_main_call2_v10_apply, val_main_call2_v9_apply, val_main_call2_v8_apply, e, sumExpShifted_eq, shifted_eq,
    logSoftmaxLayer_at]
  simp only [Ideal.subf_def, Ideal.hostUnary_log_def]

end Cert.ReferenceIdeal.Hand

end
-- ==== Proof.Join.lean ====
/-
  The two programs compute one function.

  Both aggregate with the same host operations — the kernel program's and the reference's aggregation terms are the same
  term, read in either program's spelling of the shapes — and each of the reference's three layers is the specification's
  layer of its aggregated input; so the reference's result term is the network's output as the walk through the kernel
  program's @main reads it.
-/
import proofs.«159145_j78408922955888_1_alg».proof.Proof.KChain
import proofs.«159145_j78408922955888_1_alg».proof.Proof.RefAgg
import proofs.«159145_j78408922955888_1_alg».proof.Proof.RefSpec

noncomputable section

namespace Cert.Proof.Join

open Idealize.ShloMosaic Idealize.ShloMosaic.ValueIdx
open Cert.KernelIdeal.Hand (aggS128 aggS96 srcRaw dstRaw)

section
variable {F : FTy → Type} [FloatOps F]

/-- The aggregation of 128-feature rows is one term in the two programs. -/
theorem agg128_eq (X : (⟨Cert.KernelIdeal.S50000x128, .f32⟩ : BufTy).Contents (Elt F)) (e : (⟨Cert.KernelIdeal.S2x800000, .i32⟩ : BufTy).Contents (Elt F)) :
    aggS128 X (srcRaw e) (dstRaw e) = Cert.ReferenceIdeal.Hand.agg128 (F := F) X e := rfl

/-- The aggregation of 96-feature rows is one term in the two programs. -/
theorem agg96_eq (X : (⟨Cert.KernelIdeal.S50000x96, .f32⟩ : BufTy).Contents (Elt F)) (e : (⟨Cert.KernelIdeal.S2x800000, .i32⟩ : BufTy).Contents (Elt F)) :
    aggS96 X (srcRaw e) (dstRaw e) = Cert.ReferenceIdeal.Hand.agg96 (F := F) X e := rfl
end

/-- The reference's result term, at the ideal values, is the output layer of the aggregated second layer of the
    aggregated first layer of the aggregated input. -/
theorem ref_out (x0 : (⟨Cert.KernelIdeal.S50000x128, .f32⟩ : BufTy).Contents (Elt Ideal)) (x1 : (⟨Cert.KernelIdeal.S128x96, .f32⟩ : BufTy).Contents (Elt Ideal)) (x2 : (⟨Cert.KernelIdeal.S96, .f32⟩ : BufTy).Contents (Elt Ideal)) (x3 : (⟨Cert.KernelIdeal.S96x96, .f32⟩ : BufTy).Contents (Elt Ideal)) (x4 : (⟨Cert.KernelIdeal.S96, .f32⟩ : BufTy).Contents (Elt Ideal)) (x5 : (⟨Cert.KernelIdeal.S96x40, .f32⟩ : BufTy).Contents (Elt Ideal)) (x6 : (⟨Cert.KernelIdeal.S40, .f32⟩ : BufTy).Contents (Elt Ideal)) (x7 : (⟨Cert.KernelIdeal.S2x800000, .i32⟩ : BufTy).Contents (Elt Ideal)) :
    Cert.ReferenceIdeal.ReadP.val_main_v48 (F := Ideal) x0 x1 x2 x3 x4 x5 x6 x7
      = Spec.logSoftmaxLayer
          (aggS96 (Spec.reluLayer
            (aggS96 (Spec.reluLayer (aggS128 x0 (srcRaw x7) (dstRaw x7) : Cert.KernelIdeal.S50000x128.Idx → Ideal .f32)
                (x1 : Cert.KernelIdeal.S128x96.Idx → Ideal .f32) (fun o => (x2 : Cert.KernelIdeal.S96.Idx → Ideal .f32) (ix1 o)))
              (srcRaw x7) (dstRaw x7) : Cert.KernelIdeal.S50000x96.Idx → Ideal .f32)
            (x3 : Cert.KernelIdeal.S96x96.Idx → Ideal .f32) (fun o => (x4 : Cert.KernelIdeal.S96.Idx → Ideal .f32) (ix1 o)))
            (srcRaw x7) (dstRaw x7) : Cert.KernelIdeal.S50000x96.Idx → Ideal .f32)
          (x5 : Cert.KernelIdeal.S96x40.Idx → Ideal .f32) (fun o => (x6 : Cert.KernelIdeal.S40.Idx → Ideal .f32) (ix1 o)) := by
  rw [agg128_eq, agg96_eq, agg96_eq]
  rw [Cert.ReferenceIdeal.Hand.v48_spec, Cert.ReferenceIdeal.Hand.v43_eq, Cert.ReferenceIdeal.Hand.v33_spec,
    Cert.ReferenceIdeal.Hand.v28_eq, Cert.ReferenceIdeal.Hand.v18_spec, Cert.ReferenceIdeal.Hand.v13_eq]

end Cert.Proof.Join

end
-- ==== Proof.RefRun.lean ====
/-
  The reference's run, read back in three stretches — one per layer —, each stretch's results named by the generated
  stage definitions: every weakly fair execution terminates with the result array at the last stage of the arguments and
  the arguments unchanged.

  @main is one straight line of host operations. Its list is cut where one layer hands its result to the next: the first
  stretch ends at the first layer's rectified output, the second at the second layer's, the third holds the last layer
  and the row-wise log-softmax. The contents after the whole line are the contents after the third stretch, from the
  contents after the second, from the contents after the first. For each stretch, from ARBITRARY entry contents, the
  few buffers the later stretches read are computed: a result buffer holds its stage definition of the entry contents,
  a buffer the stretch does not write holds what it held. An earlier layer's result enters a later stretch only as a
  hypothesis, named by its stage definition and never opened, so each comparison is over one layer's operations.
-/
import proofs.«159145_j78408922955888_1_alg».proof.Proof.RefReadP
import Idealize.ShloMosaic.Lib.StableHlo.Run

noncomputable section

namespace Cert.ReferenceIdeal.Hand

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The first layer's operations: the edge arrays, the index fix-up, gather, scatter-add, the weights, the bias, the rectifier. -/
abbrev opsA : List (HloOp τ sig (Elt F)) :=
  [ unary main_arg7 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg7 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v13 main_arg1 main_v14 ((fun l r => Host.dotGeneral dot_S50000x128_S128x96_S50000x96_1_0_0_1_n_n none l r) : (⟨S50000x128, .f32⟩ : BufTy).Contents (Elt F) → (⟨S128x96, .f32⟩ : BufTy).Contents (Elt F) → (⟨S50000x96, .f32⟩ : BufTy).Contents (Elt F)),
    unary main_arg2 main_v15 (broadcastInDim S1x96 ![1] bcast_S96_S1x96_1 : (⟨S96, .f32⟩ : BufTy).Contents (Elt F) → (⟨S1x96, .f32⟩ : BufTy).Contents (Elt F)),
    unary main_v15 main_v16 (broadcastInDim S50000x96 ![0, 1] bcast_S1x96_S50000x96_0_1 : (⟨S1x96, .f32⟩ : BufTy).Contents (Elt F) → (⟨S50000x96, .f32⟩ : BufTy).Contents (Elt F)),
    binary main_v14 main_v16 main_v17 (addf : (⟨S50000x96, .f32⟩ : BufTy).Contents (Elt F) → (⟨S50000x96, .f32⟩ : BufTy).Contents (Elt F) → (⟨S50000x96, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x96, .f32⟩) main_call0_v0) (broadcastInDim S50000x96 ![] bcast_S_S50000x96),
    TRef.binary (TRef.of (T := ⟨S50000x96, .f32⟩) main_v17) (TRef.of (T := ⟨S50000x96, .f32⟩) main_call0_v0) (TRef.of (T := ⟨S50000x96, .f32⟩) main_v18) maximumf ]

/-- The second layer's operations, from the first layer's result. -/
abbrev opsB : List (HloOp τ sig (Elt F)) :=
  [ nullary main_c_1 (constantI S_ 32 0#32),
    unary main_c_1 main_v19 (broadcastInDim S800000 ![] bcast_S_S800000 : (⟨S_, .i32⟩ : BufTy).Contents (Elt F) → (⟨S800000, .i32⟩ : BufTy).Contents (Elt F)),
    binary main_v1 main_v19 main_v20 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v21 (broadcastInDim S800000 ![] bcast_S_S800000 : (⟨S_, .i32⟩ : BufTy).Contents (Elt F) → (⟨S800000, .i32⟩ : BufTy).Contents (Elt F)),
    binary main_v1 main_v21 main_v22 (addi : (⟨S800000, .i32⟩ : BufTy).Contents (Elt F) → (⟨S800000, .i32⟩ : BufTy).Contents (Elt F) → (⟨S800000, .i32⟩ : BufTy).Contents (Elt F)),
    ternary main_v20 main_v22 main_v1 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v23 main_v24 (broadcastInDim S800000x1 ![0] bcast_S800000_S800000x1_0 : (⟨S800000, .i32⟩ : BufTy).Contents (Elt F) → (⟨S800000x1, .i32⟩ : BufTy).Contents (Elt F)),
    binary main_v18 main_v24 main_v25 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    nullary main_cst_3 (constant S_ .f32 0x00000000#32),
    unary main_cst_3 main_v26 (broadcastInDim S50000x96 ![] bcast_S_S50000x96 : (⟨S_, .f32⟩ : BufTy).Contents (Elt F) → (⟨S50000x96, .f32⟩ : BufTy).Contents (Elt F)),
    unary main_v3 main_v27 (broadcastInDim S800000x1 ![0] bcast_S800000_S800000x1_0 : (⟨S800000, .i32⟩ : BufTy).Contents (Elt F) → (⟨S800000x1, .i32⟩ : BufTy).Contents (Elt F)),
    ternary main_v26 main_v27 main_v25 main_v28 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    binary main_v28 main_arg3 main_v29 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    unary main_arg4 main_v30 (broadcastInDim S1x96 ![1] bcast_S96_S1x96_1 : (⟨S96, .f32⟩ : BufTy).Contents (Elt F) → (⟨S1x96, .f32⟩ : BufTy).Contents (Elt F)),
    unary main_v30 main_v31 (broadcastInDim S50000x96 ![0, 1] bcast_S1x96_S50000x96_0_1 : (⟨S1x96, .f32⟩ : BufTy).Contents (Elt F) → (⟨S50000x96, .f32⟩ : BufTy).Contents (Elt F)),
    binary main_v29 main_v31 main_v32 (addf : (⟨S50000x96, .f32⟩ : BufTy).Contents (Elt F) → (⟨S50000x96, .f32⟩ : BufTy).Contents (Elt F) → (⟨S50000x96, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x96, .f32⟩) main_call1_v0) (broadcastInDim S50000x96 ![] bcast_S_S50000x96),
    TRef.binary (TRef.of (T := ⟨S50000x96, .f32⟩) main_v32) (TRef.of (T := ⟨S50000x96, .f32⟩) main_call1_v0) (TRef.of (T := ⟨S50000x96, .f32⟩) main_v33) maximumf ]

/-- The third layer's operations and the row-wise log-softmax, from the second layer's result. -/
abbrev opsC : List (HloOp τ sig (Elt F)) :=
  [ nullary main_c_4 (constantI S_ 32 0#32),
    unary main_c_4 main_v34 (broadcastInDim S800000 ![] bcast_S_S800000 : (⟨S_, .i32⟩ : BufTy).Contents (Elt F) → (⟨S800000, .i32⟩ : BufTy).Contents (Elt F)),
    binary main_v1 main_v34 main_v35 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v36 (broadcastInDim S800000 ![] bcast_S_S800000 : (⟨S_, .i32⟩ : BufTy).Contents (Elt F) → (⟨S800000, .i32⟩ : BufTy).Contents (Elt F)),
    binary main_v1 main_v36 main_v37 (addi : (⟨S800000, .i32⟩ : BufTy).Contents (Elt F) → (⟨S800000, .i32⟩ : BufTy).Contents (Elt F) → (⟨S800000, .i32⟩ : BufTy).Contents (Elt F)),
    ternary main_v35 main_v37 main_v1 main_v38 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v38 main_v39 (broadcastInDim S800000x1 ![0] bcast_S800000_S800000x1_0 : (⟨S800000, .i32⟩ : BufTy).Contents (Elt F) → (⟨S800000x1, .i32⟩ : BufTy).Contents (Elt F)),
    binary main_v33 main_v39 main_v40 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    nullary main_cst_6 (constant S_ .f32 0x00000000#32),
    unary main_cst_6 main_v41 (broadcastInDim S50000x96 ![] bcast_S_S50000x96 : (⟨S_, .f32⟩ : BufTy).Contents (Elt F) → (⟨S50000x96, .f32⟩ : BufTy).Contents (Elt F)),
    unary main_v3 main_v42 (broadcastInDim S800000x1 ![0] bcast_S800000_S800000x1_0 : (⟨S800000, .i32⟩ : BufTy).Contents (Elt F) → (⟨S800000x1, .i32⟩ : BufTy).Contents (Elt F)),
    ternary main_v41 main_v42 main_v40 main_v43 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    binary main_v43 main_arg5 main_v44 ((fun l r => Host.dotGeneral dot_S50000x96_S96x40_S50000x40_1_0_0_1_n_n none l r) : (⟨S50000x96, .f32⟩ : BufTy).Contents (Elt F) → (⟨S96x40, .f32⟩ : BufTy).Contents (Elt F) → (⟨S50000x40, .f32⟩ : BufTy).Contents (Elt F)),
    unary main_arg6 main_v45 (broadcastInDim S1x40 ![1] bcast_S40_S1x40_1 : (⟨S40, .f32⟩ : BufTy).Contents (Elt F) → (⟨S1x40, .f32⟩ : BufTy).Contents (Elt F)),
    unary main_v45 main_v46 (broadcastInDim S50000x40 ![0, 1] bcast_S1x40_S50000x40_0_1 : (⟨S1x40, .f32⟩ : BufTy).Contents (Elt F) → (⟨S50000x40, .f32⟩ : BufTy).Contents (Elt F)),
    binary main_v44 main_v46 main_v47 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call2_cst) (constant S_ .f32 0xFF800000#32),
    TRef.binary (TRef.of (T := ⟨S50000x40, .f32⟩) main_v47) (TRef.of (T := ⟨S_, .f32⟩) main_call2_cst) (TRef.of (T := ⟨S50000, .f32⟩) main_call2_v0) (fun x v => Host.reduce FloatOps.maximumf x v reducesTo_S50000x40_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x40, .f32⟩) main_call2_v4) (broadcastInDim S50000x40 ![0, 1] bcast_S50000x1_S50000x40_0_1),
    TRef.binary (TRef.of (T := ⟨S50000x40, .f32⟩) main_v47) (TRef.of (T := ⟨S50000x40, .f32⟩) main_call2_v4) (TRef.of (T := ⟨S50000x40, .f32⟩) main_call2_v5) subf,
    TRef.unary (TRef.of (T := ⟨S50000x40, .f32⟩) main_call2_v5) (TRef.of (T := ⟨S50000x40, .f32⟩) main_call2_v6) Host.exp,
    TRef.nullary (TRef.of (T := ⟨S_, .f32⟩) main_call2_cst_1) (constant S_ .f32 0x00000000#32),
    TRef.binary (TRef.of (T := ⟨S50000x40, .f32⟩) main_call2_v6) (TRef.of (T := ⟨S_, .f32⟩) main_call2_cst_1) (TRef.of (T := ⟨S50000, .f32⟩) main_call2_v7) (fun x v => Host.reduceAdd x v reducesTo_S50000x40_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x40, .f32⟩) main_call2_v10) (broadcastInDim S50000x40 ![0, 1] bcast_S50000x1_S50000x40_0_1),
    TRef.binary (TRef.of (T := ⟨S50000x40, .f32⟩) main_call2_v5) (TRef.of (T := ⟨S50000x40, .f32⟩) main_call2_v10) (TRef.of (T := ⟨S50000x40, .f32⟩) main_v48) subf ]

/-- Contents moved to a typed reference's buffer type and back again are the contents they were: the two transports
    run along one equation of types and its inverse. -/
theorem ofBuf_toBuf {sg : RefSig} {Val : EltTy → Type} {T : BufTy} (x : TRef sg T) (v : T.Contents Val) :
    x.ofBuf (x.toBuf v) = v := by
  obtain ⟨r, h, hd, hu⟩ := x
  subst h
  rfl

/-! ## The operation list, cut at the two layer boundaries -/

set_option maxRecDepth 8192 in
/-- The three stretches in a row are @main's operation list. -/
theorem ops_eq_append : (ops : List (HloOp τ sig (Elt F))) = opsA ++ (opsB ++ opsC) := rfl

/-! ## The first layer

From any contents `W`: the two edge-index rows and the layer's result are the stage definitions of the arguments
as `W` has them; the arguments the later layers read are untouched. -/

theorem afterA_v1 (W : Valuation τ sig (Elt F)) :
    after opsA W (Proc.devRef .tc main_v1) = val_main_v1 (F := F) (W (Proc.devRef .tc main_arg7)) := by
  after_results_simp
  rfl

theorem afterA_v3 (W : Valuation τ sig (Elt F)) :
    after opsA W (Proc.devRef .tc main_v3) = val_main_v3 (F := F) (W (Proc.devRef .tc main_arg7)) := by
  after_results_simp
  rfl

theorem afterA_v18 (W : Valuation τ sig (Elt F)) :
    after opsA W (Proc.devRef .tc main_v18)
      = val_main_v18 (F := F) (W (Proc.devRef .tc main_arg0)) (W (Proc.devRef .tc main_arg1)) (W (Proc.devRef .tc main_arg2)) (W (Proc.devRef .tc main_arg7)) := by
  after_results_simp
  simp only [ofBuf_toBuf]
  rfl

theorem afterA_arg3 (W : Valuation τ sig (Elt F)) :
    after opsA W (Proc.devRef .tc main_arg3) = W (Proc.devRef .tc main_arg3) := by
  after_results_simp

theorem afterA_arg4 (W : Valuation τ sig (Elt F)) :
    after opsA W (Proc.devRef .tc main_arg4) = W (Proc.devRef .tc main_arg4) := by
  after_results_simp

theorem afterA_arg5 (W : Valuation τ sig (Elt F)) :
    after opsA W (Proc.devRef .tc main_arg5) = W (Proc.devRef .tc main_arg5) := by
  after_results_simp

theorem afterA_arg6 (W : Valuation τ sig (Elt F)) :
    after opsA W (Proc.devRef .tc main_arg6) = W (Proc.devRef .tc main_arg6) := by
  after_results_simp

/-! ## The second layer

From contents that hold the first layer's result and the two edge-index rows (each named by its stage definition,
which stays folded: the layer's own operations are all that is compared). -/

theorem afterB_v33 (W : Valuation τ sig (Elt F)) (x0 : (⟨S50000x128, .f32⟩ : BufTy).Contents (Elt F)) (x1 : (⟨S128x96, .f32⟩ : BufTy).Contents (Elt F)) (x2 : (⟨S96, .f32⟩ : BufTy).Contents (Elt F)) (x7 : (⟨S2x800000, .i32⟩ : BufTy).Contents (Elt F))
    (h18 : W (Proc.devRef .tc main_v18) = val_main_v18 (F := F) x0 x1 x2 x7)
    (h1 : W (Proc.devRef .tc main_v1) = val_main_v1 (F := F) x7)
    (h3 : W (Proc.devRef .tc main_v3) = val_main_v3 (F := F) x7) :
    after opsB W (Proc.devRef .tc main_v33)
      = val_main_v33 (F := F) x0 x1 x2 (W (Proc.devRef .tc main_arg3)) (W (Proc.devRef .tc main_arg4)) x7 := by
  after_results_simp
  rw [h18, h1, h3]
  simp only [ofBuf_toBuf]
  rfl

theorem afterB_v1 (W : Valuation τ sig (Elt F)) :
    after opsB W (Proc.devRef .tc main_v1) = W (Proc.devRef .tc main_v1) := by
  after_results_simp

theorem afterB_v3 (W : Valuation τ sig (Elt F)) :
    after opsB W (Proc.devRef .tc main_v3) = W (Proc.devRef .tc main_v3) := by
  after_results_simp

theorem afterB_arg5 (W : Valuation τ sig (Elt F)) :
    after opsB W (Proc.devRef .tc main_arg5) = W (Proc.devRef .tc main_arg5) := by
  after_results_simp

theorem afterB_arg6 (W : Valuation τ sig (Elt F)) :
    after opsB W (Proc.devRef .tc main_arg6) = W (Proc.devRef .tc main_arg6) := by
  after_results_simp

/-! ## The third layer and the row-wise log-softmax

From contents that hold the second layer's result and the two edge-index rows. The log-softmax is a called function:
each of its values is written and read back through the same typed reference, and those pairs of transports cancel
(`ofBuf_toBuf`) before the two sides are compared. -/

theorem afterC_v48 (W : Valuation τ sig (Elt F)) (x0 : (⟨S50000x128, .f32⟩ : BufTy).Contents (Elt F)) (x1 : (⟨S128x96, .f32⟩ : BufTy).Contents (Elt F)) (x2 : (⟨S96, .f32⟩ : BufTy).Contents (Elt F)) (x3 : (⟨S96x96, .f32⟩ : BufTy).Contents (Elt F)) (x4 : (⟨S96, .f32⟩ : BufTy).Contents (Elt F)) (x7 : (⟨S2x800000, .i32⟩ : BufTy).Contents (Elt F))
    (h33 : W (Proc.devRef .tc main_v33) = val_main_v33 (F := F) x0 x1 x2 x3 x4 x7)
    (h1 : W (Proc.devRef .tc main_v1) = val_main_v1 (F := F) x7)
    (h3 : W (Proc.devRef .tc main_v3) = val_main_v3 (F := F) x7) :
    after opsC W (Proc.devRef .tc main_v48)
      = val_main_v48 (F := F) x0 x1 x2 x3 x4 (W (Proc.devRef .tc main_arg5)) (W (Proc.devRef .tc main_arg6)) x7 := by
  after_results_simp
  rw [h33, h1, h3]
  simp only [ofBuf_toBuf]
  rfl

/-! ## The three layers in a row -/

/-- The result buffer after all of @main's operations, from any contents `V`: the last stage of the eight arguments
    as `V` has them. Each layer's lemma is used at the contents the layers before it leave; nothing of an earlier
    layer is unfolded. -/
theorem after_ops_v48 (V : Valuation τ sig (Elt F)) :
    after ops V (Proc.devRef .tc main_v48)
      = val_main_v48 (F := F) (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7)) := by
  rw [ops_eq_append, after_append, after_append]
  have hB33 := afterB_v33 (after opsA V) _ _ _ _ (afterA_v18 V) (afterA_v1 V) (afterA_v3 V)
  rw [afterA_arg3, afterA_arg4] at hB33
  have hC := afterC_v48 (after opsB (after opsA V)) _ _ _ _ _ _ hB33
    ((afterB_v1 _).trans (afterA_v1 V)) ((afterB_v3 _).trans (afterA_v3 V))
  rw [afterB_arg5, afterB_arg6, afterA_arg5, afterA_arg6] at hC
  exact hC

set_option maxRecDepth 8192 in
set_option maxHeartbeats 4000000 in
/-- The run: the result array ends at the last stage of the argument arrays, the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48) = val_main_v48 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v48).trans (after_ops_v48 (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.Hand

end
-- ==== Proof.lean ====
/-
  A three-layer graph network: each layer sums, into every node's row, the feature rows of the nodes its incoming edges
  start from, multiplies by a weight matrix, adds a bias, and applies an activation — zero-clamping in the two hidden
  layers, the logarithm of a softmax along each row in the output layer. The kernel program does the sums on the host
  and each `A·W + b` with its activation in a pallas_call over ten blocks of 5000 rows; the reference does everything on
  the host.

  At the ideal values the two are one function of the arguments. The aggregation is the same host term in both programs.
  A call's body narrows its operands to bf16 (the identity at the ideal values), multiplies into a zero accumulator (the
  sum over the contracted axis, as the host's product), and its row maximum and row sum are the host's reductions over
  the same forty entries; entry (p, q) of a block depends on row p of the block only, so the ten blocks are the blocks of
  the layer applied to the whole arrays. No law that needs finiteness is used: the precondition is never opened.

  The frames of the two kernel programs are the generated ones; the reference's frame is its run with the result dropped.
  The idealization rewrote no operation, so `preserves` is trivially true.
-/
import proofs.«159145_j78408922955888_1_alg».proof.Defs
import proofs.«159145_j78408922955888_1_alg».proof.Proof.Gen.Kernel
import proofs.«159145_j78408922955888_1_alg».proof.Proof.Gen.Kernel.Skeleton
import proofs.«159145_j78408922955888_1_alg».proof.Proof.Gen.Kernel.Launch
import proofs.«159145_j78408922955888_1_alg».proof.Proof.Gen.Kernel.Points
import proofs.«159145_j78408922955888_1_alg».proof.Proof.Gen.Kernel.Frame
import proofs.«159145_j78408922955888_1_alg».proof.Proof.Gen.KernelIdeal
import proofs.«159145_j78408922955888_1_alg».proof.Proof.Gen.KernelIdeal.Skeleton
import proofs.«159145_j78408922955888_1_alg».proof.Proof.Gen.KernelIdeal.Launch
import proofs.«159145_j78408922955888_1_alg».proof.Proof.Gen.KernelIdeal.Points
import proofs.«159145_j78408922955888_1_alg».proof.Proof.Gen.KernelIdeal.Frame
import proofs.«159145_j78408922955888_1_alg».proof.Proof.Gen.ReferenceIdeal
import proofs.«159145_j78408922955888_1_alg».proof.Proof.Gen.Pre_finite_inputs
import proofs.«159145_j78408922955888_1_alg».proof.Proof.KRun
import proofs.«159145_j78408922955888_1_alg».proof.Proof.Join
import proofs.«159145_j78408922955888_1_alg».proof.Proof.RefRun
import Idealize.ShloMosaic.Adequacy
import Idealize.ShloMosaic.Init

noncomputable section

namespace Cert.Proof

open Idealize.ShloMosaic Idealize.SL.Sem

/-- The word-level kernel program runs and leaves its arguments: the generated frame. -/
theorem frame_kernel : Cert.frame_Kernel := fun m ρ _ => Cert.Kernel.Gen.frame m ρ

/-- The idealized kernel program runs and leaves its arguments: the generated frame. -/
theorem frame_kernelIdeal : Cert.frame_KernelIdeal := fun m ρ _ => Cert.KernelIdeal.Gen.frame m ρ

/-- The reference runs and leaves its arguments: its run with the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The idealization rewrote nothing. -/
theorem preserves : Cert.preserves_Kernel_KernelIdeal := trivial

/-- From memories agreeing on the arguments both programs end with the network's output of those arguments: the kernel
    program by the walk through its @main, the reference by its run and its three layers read against the specification. -/
theorem algebraic : Cert.algebraic_KernelIdeal_ReferenceIdeal := by
  intro m ρ m' ρ' _ hagree
  refine ⟨fun c => Cert.KernelIdeal.Hand.Out m c, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4, e5, e6, e7⟩ := hagree c
  rw [e0, e1, e2, e3, e4, e5, e6, e7]
  exact Cert.Proof.Join.ref_out _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
